-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x91 : Shape := ⟨2, ![8192, 91]⟩
abbrev S8192x4 : Shape := ⟨2, ![8192, 4]⟩
abbrev S2048x4 : Shape := ⟨2, ![2048, 4]⟩
abbrev S2048 : Shape := ⟨1, ![2048]⟩
abbrev S_ : Shape := ⟨0, ![]⟩

class Facts : Prop where
  bcast_S_S8192x91 : S_.BroadcastsInDim S8192x91 (![] : Fin 0 → Fin S8192x91.rank)
  reducesTo_S8192x91_S_d0_1 : S8192x91.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg3 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  main_v20

def fn {F : FTy → Type} [FloatOps F] (main_arg0 : FVec F S8192x91 .f32) (main_arg1 : FVec F S8192x4 .f32) (main_arg2 : FVec F S2048x4 .f32) (main_arg3 : IVec S2048 32) : IVec S_ 1 :=
  let main_v0 : FVec F S8192x91 .f32 := Host.absf main_arg0
  let main_cst : FVec F S_ .f32 := constant S_ .f32 0x7F800000#32
  let main_v1 : FVec F S8192x91 .f32 := broadcastInDim S8192x91 ![] bcast_S_S8192x91 main_cst
  let main_v2 : IVec S8192x91 1 := cmpf .olt main_v0 main_v1
  let main_c : IVec S_ 1 := constantI S_ 1 1#1
  let main_v3 : IVec S_ 1 := (fun x v => Host.reduce IntOp.andi x v reducesTo_S8192x91_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg3 main_v14
  let main_c_5 : IVec S_ 32 := constantI S_ 32 91#32
  fn_part1 (F := F) main_arg3 main_v13 main_v15 main_c_5
-- ==== Kernel.lean ====
abbrev S8192x91 : Shape := ⟨2, ![8192, 91]⟩
abbrev S8192x4 : Shape := ⟨2, ![8192, 4]⟩
abbrev S2048x4 : Shape := ⟨2, ![2048, 4]⟩
abbrev S2048 : Shape := ⟨1, ![2048]⟩
abbrev S2048x1 : Shape := ⟨2, ![2048, 1]⟩
abbrev S1x91 : Shape := ⟨2, ![1, 91]⟩
abbrev S2048x91 : Shape := ⟨2, ![2048, 91]⟩
abbrev S91x2048 : Shape := ⟨2, ![91, 2048]⟩
abbrev S4x2048 : Shape := ⟨2, ![4, 2048]⟩
abbrev S8192x2048 : Shape := ⟨2, ![8192, 2048]⟩
abbrev S512x91 : Shape := ⟨2, ![512, 91]⟩
abbrev S512x4 : Shape := ⟨2, ![512, 4]⟩
abbrev S4x512 : Shape := ⟨2, ![4, 512]⟩
abbrev S91x512 : Shape := ⟨2, ![91, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 13
  | .vmem => 10
  | .smem => 0
  | _ => 0

abbrev bufTy : (tb : Table) → Fin (tcTables nBuf tb) → BufTy
  | .hbm, ⟨0, _⟩ => ⟨S8192x91, .f32⟩
  | .hbm, ⟨1, _⟩ => ⟨S8192x4, .f32⟩
  | .hbm, ⟨2, _⟩ => ⟨S2048x4, .f32⟩
  | .hbm, ⟨3, _⟩ => ⟨S2048, .i32⟩
  | .hbm, ⟨4, _⟩ => ⟨S2048x1, .i32⟩
  | .hbm, ⟨5, _⟩ => ⟨S1x91, .i32⟩
  | .hbm, ⟨6, _⟩ => ⟨S2048x91, .i32⟩
  | .hbm, ⟨7, _⟩ => ⟨S2048x91, .i32⟩
  | .hbm, ⟨8, _⟩ => ⟨S2048x91, .i1⟩
  | .hbm, ⟨9, _⟩ => ⟨S2048x91, .bf16⟩
  | .hbm, ⟨10, _⟩ => ⟨S91x2048, .bf16⟩
  | .hbm, ⟨11, _⟩ => ⟨S4x2048, .f32⟩
  | .hbm, ⟨12, _⟩ => ⟨S8192x2048, .f32⟩
  | .local _ .vmem, ⟨0, _⟩ => ⟨S512x91, .f32⟩
  | .local _ .vmem, ⟨1, _⟩ => ⟨S512x91, .f32⟩
  | .local _ .vmem, ⟨2, _⟩ => ⟨S512x4, .f32⟩
  | .local _ .vmem, ⟨3, _⟩ => ⟨S512x4, .f32⟩
  | .local _ .vmem, ⟨4, _⟩ => ⟨S4x512, .f32⟩
  | .local _ .vmem, ⟨5, _⟩ => ⟨S4x512, .f32⟩
  | .local _ .vmem, ⟨6, _⟩ => ⟨S91x512, .bf16⟩
  | .local _ .vmem, ⟨7, _⟩ => ⟨S91x512, .bf16⟩
  | .local _ .vmem, ⟨8, _⟩ => ⟨S512x512, .f32⟩
  | .local _ .vmem, ⟨9, _⟩ => ⟨S512x512, .f32⟩
  | _, _ => ⟨S8192x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S91x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S2048_S2048x1_0 : S2048.BroadcastsInDim S2048x1 (![0] : Fin 1 → Fin S2048x1.rank)
  bcast_S2048x1_S2048x91_0_1 : S2048x1.BroadcastsInDim S2048x91 (![0, 1] : Fin 2 → Fin S2048x91.rank)
  bcast_S1x91_S2048x91_0_1 : S1x91.BroadcastsInDim S2048x91 (![0, 1] : Fin 2 → Fin S2048x91.rank)
  transposes_S2048x91_S91x2048_1_0 : S2048x91.Transposes [1, 0] S91x2048
  transposes_S2048x4_S4x2048_1_0 : S2048x4.Transposes [1, 0] S4x2048
  inb_S512x91_S512x91_0_0 : ∀ a, (![0, 0] : Fin 2 → Nat) a + S512x91.size a ≤ S512x91.size a
  h_S512x91 : 0 < S512x91.numel
  reduces_S512x91_S512 : S512x91.Reduces [1] S512
  shapeCasts_S512_S512x1 : S512.ShapeCasts S512x1
  broadcasts_S512x1_S512x91 : S512x1.Broadcasts S512x91
  bitsLt_bf16_f32 : FTy.bits .bf16 < FTy.bits .f32
  inb_S91x512_S91x512_0_0 : ∀ a, (![0, 0] : Fin 2 → Nat) a + S91x512.size a ≤ S91x512.size a
  h_S91x512 : 0 < S91x512.numel
  shapeCasts_S91x512_S91x512 : S91x512.ShapeCasts S91x512
  inb_S512x4_S512x4_0_0 : ∀ a, (![0, 0] : Fin 2 → Nat) a + S512x4.size a ≤ S512x4.size a
  h_S512x4 : 0 < S512x4.numel
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S512x4_o0_0_S512x1 : S512x4.Slices ![0, 0] S512x1
  slices_S4x512_o0_0_S1x512 : S4x512.Slices ![0, 0] S1x512
  broadcasts_S512x1_S512x512 : S512x1.Broadcasts S512x512
  broadcasts_S1x512_S512x512 : S1x512.Broadcasts S512x512
  slices_S512x4_o0_1_S512x1 : S512x4.Slices ![0, 1] S512x1
  slices_S4x512_o1_0_S1x512 : S4x512.Slices ![1, 0] S1x512
  slices_S512x4_o0_2_S512x1 : S512x4.Slices ![0, 2] S512x1
  slices_S4x512_o2_0_S1x512 : S4x512.Slices ![2, 0] S1x512
  slices_S512x4_o0_3_S512x1 : S512x4.Slices ![0, 3] S512x1
  slices_S4x512_o3_0_S1x512 : S4x512.Slices ![3, 0] S1x512
  inb_S512x512_S512x512_0_0 : ∀ a, (![0, 0] : Fin 2 → Nat) a + S512x512.size a ≤ S512x512.size a
  h_S512x512 : 0 < S512x512.numel
  dot_S512x91_S91x512_S512x512_1_0_0_1_n_n_wf : DotDims.WF S512x91 S91x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x91.size a ≤ S8192x91.size a
  hwx0_0 : ∀ i : grid0.Coords, EltTy.bits .f32 = 32 ∨ (Rect.block (s := S8192x91) S512x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S8192x4.size a
  hwx0_1 : ∀ i : grid0.Coords, EltTy.bits .f32 = 32 ∨ (Rect.block (s := S8192x4) S512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x2048.size a
  hwx0_2 : ∀ i : grid0.Coords, EltTy.bits .f32 = 32 ∨ (Rect.block (s := S4x2048) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S91x512.size a ≤ S91x2048.size a
  hwx0_3 : ∀ i : grid0.Coords, EltTy.bits .bf16 = 32 ∨ (Rect.block (s := S91x2048) S91x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x2048.size a
  hwx0_4 : ∀ i : grid0.Coords, EltTy.bits .f32 = 32 ∨ (Rect.block (s := S8192x2048) S512x512.size (cc0_transform_4 i) (hinb0_4 i)).WholeWords (EltTy.packing .f32)

variable [Facts₀]

def dot_S512x91_S91x512_S512x512_1_0_0_1_n_n : DotDims S512x91 S91x512 S512x512 where
  lhsContracting := [1]
  rhsContracting := [0]
  lhsNonContracting := [0]
  rhsNonContracting := [1]
  lhsBatch := []
  rhsBatch := []
  wf := dot_S512x91_S91x512_S512x512_1_0_0_1_n_n_wf

abbrev win0_0 : Pipeline.Window sig grid0 :=
  Pipeline.Window.ofSpec (Memref.whole main_arg0) S512x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S91x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x91 : Shape := ⟨2, ![8192, 91]⟩
abbrev S8192x4 : Shape := ⟨2, ![8192, 4]⟩
abbrev S2048x4 : Shape := ⟨2, ![2048, 4]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x1 : Shape := ⟨2, ![2048, 1]⟩
abbrev S8192x2048 : Shape := ⟨2, ![8192, 2048]⟩
abbrev S8192x1x4 : Shape := ⟨3, ![8192, 1, 4]⟩
abbrev S1x2048x4 : Shape := ⟨3, ![1, 2048, 4]⟩
abbrev S8192x2048x4 : Shape := ⟨3, ![8192, 2048, 4]⟩
abbrev S8192x2 : Shape := ⟨2, ![8192, 2]⟩
abbrev S8192x1x2 : Shape := ⟨3, ![8192, 1, 2]⟩
abbrev S2048x2 : Shape := ⟨2, ![2048, 2]⟩
abbrev S1x2048x2 : Shape := ⟨3, ![1, 2048, 2]⟩
abbrev S8192x2048x2 : Shape := ⟨3, ![8192, 2048, 2]⟩
abbrev S8192x2048x1 : Shape := ⟨3, ![8192, 2048, 1]⟩
abbrev S1x2048 : Shape := ⟨2, ![1, 2048]⟩

abbrev nBuf : Space → Nat
  | .hbm => 186
  | .vmem => 0
  | .smem => 0
  | _ => 0

abbrev hbmTy0_0 (i : Nat) : BufTy := match i % 128 with
  | 0 => ⟨S8192x91, .f32⟩
  | 1 => ⟨S8192x4, .f32⟩
  | 2 => ⟨S2048x4, .f32⟩
  | 3 => ⟨S2048, .i32⟩
  | 4 => ⟨S_, .f32⟩
  | 5 => ⟨S8192, .f32⟩
  | 6 => ⟨S_, .f32⟩
  | 7 => ⟨S8192, .f32⟩
  | 8 => ⟨S8192, .f32⟩
  | 9 => ⟨S8192x1, .f32⟩
  | 10 => ⟨S8192x91, .f32⟩
  | 11 => ⟨S8192x91, .f32⟩
  | 12 => ⟨S8192x91, .f32⟩
  | 13 => ⟨S_, .f32⟩
  | 14 => ⟨S8192, .f32⟩
  | 15 => ⟨S8192x1, .f32⟩
  | 16 => ⟨S8192x91, .f32⟩
  | 17 => ⟨S8192x91, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S8192x2048, .f32⟩
  | 27 => ⟨S8192x2048, .f32⟩
  | 28 => ⟨S8192x1x4, .f32⟩
  | 29 => ⟨S1x2048x4, .f32⟩
  | 30 => ⟨S8192x2048x4, .f32⟩
  | 31 => ⟨S8192x2048x4, .f32⟩
  | 32 => ⟨S8192x2048x4, .f32⟩
  | 33 => ⟨S8192x2048x4, .f32⟩
  | 34 => ⟨S_, .f32⟩
  | 35 => ⟨S8192x2048, .f32⟩
  | 36 => ⟨S8192x1, .f32⟩
  | 37 => ⟨S8192, .f32⟩
  | 38 => ⟨S8192x1, .f32⟩
  | 39 => ⟨S8192, .f32⟩
  | 40 => ⟨S8192x1, .f32⟩
  | 41 => ⟨S8192, .f32⟩
  | 42 => ⟨S8192x1, .f32⟩
  | 43 => ⟨S8192, .f32⟩
  | 44 => ⟨S_, .f32⟩
  | 45 => ⟨S8192, .f32⟩
  | 46 => ⟨S8192, .f32⟩
  | 47 => ⟨S8192, .f32⟩
  | 48 => ⟨S_, .f32⟩
  | 49 => ⟨S8192, .f32⟩
  | 50 => ⟨S8192, .f32⟩
  | 51 => ⟨S8192, .f32⟩
  | 52 => ⟨S_, .f32⟩
  | 53 => ⟨S8192, .f32⟩
  | 54 => ⟨S8192, .f32⟩
  | 55 => ⟨S8192, .f32⟩
  | 56 => ⟨S_, .f32⟩
  | 57 => ⟨S8192, .f32⟩
  | 58 => ⟨S8192, .f32⟩
  | 59 => ⟨S8192, .f32⟩
  | 60 => ⟨S8192x1, .f32⟩
  | 61 => ⟨S8192x1, .f32⟩
  | 62 => ⟨S8192x1, .f32⟩
  | 63 => ⟨S8192x1, .f32⟩
  | 64 => ⟨S8192x4, .f32⟩
  | 65 => ⟨S2048x1, .f32⟩
  | 66 => ⟨S2048, .f32⟩
  | 67 => ⟨S2048x1, .f32⟩
  | 68 => ⟨S2048, .f32⟩
  | 69 => ⟨S2048x1, .f32⟩
  | 70 => ⟨S2048, .f32⟩
  | 71 => ⟨S2048x1, .f32⟩
  | 72 => ⟨S2048, .f32⟩
  | 73 => ⟨S_, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | 84 => ⟨S2048, .f32⟩
  | 85 => ⟨S_, .f32⟩
  | 86 => ⟨S2048, .f32⟩
  | 87 => ⟨S2048, .f32⟩
  | 88 => ⟨S2048, .f32⟩
  | 89 => ⟨S2048x1, .f32⟩
  | 90 => ⟨S2048x1, .f32⟩
  | 91 => ⟨S2048x1, .f32⟩
  | 92 => ⟨S2048x1, .f32⟩
  | 93 => ⟨S2048x4, .f32⟩
  | 94 => ⟨S8192x1, .f32⟩
  | 95 => ⟨S8192, .f32⟩
  | 96 => ⟨S8192x1, .f32⟩
  | 97 => ⟨S8192, .f32⟩
  | 98 => ⟨S8192, .f32⟩
  | 99 => ⟨S8192x1, .f32⟩
  | 100 => ⟨S8192, .f32⟩
  | 101 => ⟨S8192x1, .f32⟩
  | 102 => ⟨S8192, .f32⟩
  | 103 => ⟨S8192, .f32⟩
  | 104 => ⟨S8192, .f32⟩
  | 105 => ⟨S2048x1, .f32⟩
  | 106 => ⟨S2048, .f32⟩
  | 107 => ⟨S2048x1, .f32⟩
  | 108 => ⟨S2048, .f32⟩
  | 109 => ⟨S2048, .f32⟩
  | 110 => ⟨S2048x1, .f32⟩
  | 111 => ⟨S2048, .f32⟩
  | 112 => ⟨S2048x1, .f32⟩
  | 113 => ⟨S2048, .f32⟩
  | 114 => ⟨S2048, .f32⟩
  | 115 => ⟨S2048, .f32⟩
  | 116 => ⟨S8192x2, .f32⟩
  | 117 => ⟨S8192x1x2, .f32⟩
  | 118 => ⟨S2048x2, .f32⟩
  | 119 => ⟨S1x2048x2, .f32⟩
  | 120 => ⟨S8192x2048x2, .f32⟩
  | 121 => ⟨S8192x2048x2, .f32⟩
  | 122 => ⟨S8192x2048x2, .f32⟩
  | 123 => ⟨S8192x2, .f32⟩
  | 124 => ⟨S8192x1x2, .f32⟩
  | 125 => ⟨S2048x2, .f32⟩
  | 126 => ⟨S1x2048x2, .f32⟩
  | 127 => ⟨S8192x2048x2, .f32⟩
  | _ => ⟨S8192x91, .f32⟩

abbrev hbmTy0_1 (i : Nat) : BufTy := match i % 128 with
  | 0 => ⟨S8192x2048x2, .f32⟩
  | 1 => ⟨S8192x2048x2, .f32⟩
  | 2 => ⟨S8192x2048x2, .f32⟩
  | 3 => ⟨S_, .f32⟩
  | 4 => ⟨S_, .f32⟩
  | 5 => ⟨S8192x2048x2, .f32⟩
  | 6 => ⟨S8192x2048x2, .f32⟩
  | 7 => ⟨S8192x2048x1, .f32⟩
  | 8 => ⟨S8192x2048, .f32⟩
  | 9 => ⟨S8192x2048x1, .f32⟩
  | 10 => ⟨S8192x2048, .f32⟩
  | 11 => ⟨S8192x2048, .f32⟩
  | 12 => ⟨S8192x1, .f32⟩
  | 13 => ⟨S1x2048, .f32⟩
  | 14 => ⟨S8192x2048, .f32⟩
  | 15 => ⟨S8192x2048, .f32⟩
  | 16 => ⟨S8192x2048, .f32⟩
  | 17 => ⟨S8192x2048, .f32⟩
  | 18 => ⟨S8192x2048, .f32⟩
  | 19 => ⟨S8192x2, .f32⟩
  | 20 => ⟨S8192x1x2, .f32⟩
  | 21 => ⟨S2048x2, .f32⟩
  | 22 => ⟨S1x2048x2, .f32⟩
  | 23 => ⟨S8192x2048x2, .f32⟩
  | 24 => ⟨S8192x2048x2, .f32⟩
  | 25 => ⟨S8192x2048x2, .f32⟩
  | 26 => ⟨S8192x2, .f32⟩
  | 27 => ⟨S8192x1x2, .f32⟩
  | 28 => ⟨S2048x2, .f32⟩
  | 29 => ⟨S1x2048x2, .f32⟩
  | 30 => ⟨S8192x2048x2, .f32⟩
  | 31 => ⟨S8192x2048x2, .f32⟩
  | 32 => ⟨S8192x2048x2, .f32⟩
  | 33 => ⟨S8192x2048x2, .f32⟩
  | 34 => ⟨S_, .f32⟩
  | 35 => ⟨S_, .f32⟩
  | 36 => ⟨S8192x2048x2, .f32⟩
  | 37 => ⟨S8192x2048x2, .f32⟩
  | 38 => ⟨S8192x2048x1, .f32⟩
  | 39 => ⟨S8192x2048, .f32⟩
  | 40 => ⟨S8192x2048x1, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S8192x2048, .f32⟩
  | _ => ⟨S8192x91, .f32⟩

abbrev hbmTy (i : Nat) : BufTy := match i / 128 with
  | 0 => hbmTy0_0 i
  | 1 => hbmTy0_1 i
  | _ => ⟨S8192x91, .f32⟩

abbrev bufTy : (tb : Table) → Fin (tcTables nBuf tb) → BufTy
  | .hbm, ⟨i, _⟩ => hbmTy i
  | _, _ => ⟨S8192x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_12 : Ref sig .tc := ⟨.hbm, 131, rfl⟩
abbrev main_call0_v0 : Ref sig .tc := ⟨.hbm, 132, rfl⟩
abbrev main_call0_v1 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_13 : Ref sig .tc := ⟨.hbm, 162, rfl⟩
abbrev main_call1_v0 : Ref sig .tc := ⟨.hbm, 163, rfl⟩
abbrev main_call1_v1 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_14 : Ref sig .tc := ⟨.hbm, 175, rfl⟩
abbrev main_v151 : Ref sig .tc := ⟨.hbm, 176, rfl⟩
abbrev main_v152 : Ref sig .tc := ⟨.hbm, 177, rfl⟩
abbrev main_cst_15 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_cst_16 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩

abbrev nD : Nat := 1
abbrev τ : Topo := Topo.v7x

variable {F : FTy → Type} [FloatOps F]

class Facts₀ : Prop where
  reducesTo_S8192x91_S8192_d1 : S8192x91.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x91_0_1 : S8192x1.BroadcastsInDim S8192x91 (![0, 1] : Fin 2 → Fin S8192x91.rank)
  bcast_S_S2048 : S_.BroadcastsInDim S2048 (![] : Fin 0 → Fin S2048.rank)
  bcast_S2048_S2048x1_0 : S2048.BroadcastsInDim S2048x1 (![0] : Fin 1 → Fin S2048x1.rank)
  bcast_S8192x4_S8192x1x4_0_2 : S8192x4.BroadcastsInDim S8192x1x4 (![0, 2] : Fin 2 → Fin S8192x1x4.rank)
  bcast_S2048x4_S1x2048x4_1_2 : S2048x4.BroadcastsInDim S1x2048x4 (![1, 2] : Fin 2 → Fin S1x2048x4.rank)
  bcast_S8192x1x4_S8192x2048x4_0_1_2 : S8192x1x4.BroadcastsInDim S8192x2048x4 (![0, 1, 2] : Fin 3 → Fin S8192x2048x4.rank)
  bcast_S1x2048x4_S8192x2048x4_0_1_2 : S1x2048x4.BroadcastsInDim S8192x2048x4 (![0, 1, 2] : Fin 3 → Fin S8192x2048x4.rank)
  reducesTo_S8192x2048x4_S8192x2048_d2 : S8192x2048x4.ReducesTo [2] S8192x2048
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  concatenates_S8192x1_S8192x1_S8192x1_S8192x1_S8192x4_d1 : Shape.Concatenates [S8192x1, S8192x1, S8192x1, S8192x1] S8192x4 1
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  concatenates_S2048x1_S2048x1_S2048x1_S2048x1_S2048x4_d1 : Shape.Concatenates [S2048x1, S2048x1, S2048x1, S2048x1] S2048x4 1
  slices_S8192x4_S8192x2_0_0 : S8192x4.Slices ![0, 0] S8192x2
  bcast_S8192x2_S8192x1x2_0_2 : S8192x2.BroadcastsInDim S8192x1x2 (![0, 2] : Fin 2 → Fin S8192x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S8192x1x2_S8192x2048x2_0_1_2 : S8192x1x2.BroadcastsInDim S8192x2048x2 (![0, 1, 2] : Fin 3 → Fin S8192x2048x2.rank)
  bcast_S1x2048x2_S8192x2048x2_0_1_2 : S1x2048x2.BroadcastsInDim S8192x2048x2 (![0, 1, 2] : Fin 3 → Fin S8192x2048x2.rank)
  slices_S8192x4_S8192x2_0_2 : S8192x4.Slices ![0, 2] S8192x2
  slices_S2048x4_S2048x2_0_2 : S2048x4.Slices ![0, 2] S2048x2
  bcast_S_S8192x2048x2 : S_.BroadcastsInDim S8192x2048x2 (![] : Fin 0 → Fin S8192x2048x2.rank)
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  gather_S8192x91_S2048x1_S8192x2048_0_1_n_n_1_1_81921_wf : GatherDims.WF S8192x91 S2048x1 S8192x2048 [0] [1] [] [1] [] 1 ![8192, 1]

variable [Facts₀]

def gather_S8192x91_S2048x1_S8192x2048_0_1_n_n_1_1_81921 : GatherDims S8192x91 S2048x1 S8192x2048 where
  offsetDims := [0]
  collapsedSliceDims := [1]
  operandBatchingDims := []
  startIndicesBatchingDims := []
  startIndexMap := [1]
  indexVectorDim := 1
  sliceSizes := ![8192, 1]
  wf := gather_S8192x91_S2048x1_S8192x2048_0_1_n_n_1_1_81921_wf

class Facts : Prop extends Facts₀ where

variable [Facts]
-- ==== Proof.LabelRange.lean ====
/-
  The class-label range, read out of the precondition.

  The precondition's last conjunct says every target label lies in [0, 91): the conjunction of the signed
  comparisons `0 ≤ id` and `id < 91`, reduced by `and` over the 2048 targets. Read back at one target it gives
  the label as a natural number below 91, and the word as that number.
-/
import proofs.«402273_j48026324304468_1_alg».proof.Pre_finite_inputs
import Idealize.ShloMosaic.Lib.ReduceAll
import Idealize.ShloMosaic.Lib.ValueIdx
import Idealize.ShloMosaic.Lib.StableHlo.Predicate

noncomputable section

namespace Cert.Pre_finite_inputs.Labels

open Idealize.ShloMosaic Cert.Pre_finite_inputs

variable [Facts]
open Facts

instance : Subsingleton S_.Idx := ⟨fun a b => funext fun d => d.elim0⟩

/-- Under the precondition every label, read signed, lies in [0, 91). -/
theorem label_range {F : FTy → Type} [FloatOps F] (a0 : FVec F S8192x91 .f32) (a1 : FVec F S8192x4 .f32)
    (a2 : FVec F S2048x4 .f32) (a3 : IVec S2048 32) (h : fn (F := F) a0 a1 a2 a3 = fun _ => 1#1) (j : S2048.Idx) :
    0 ≤ (a3 j).toInt ∧ (a3 j).toInt < 91 := by
  have h0 := congrFun h ValueIdx.ix0
  dsimp only [fn, fn_part1] at h0
  obtain ⟨-, h19⟩ := IntOp.andi_eq_one.1 h0
  have hj := Host.reduce_andi_all _ _ _ _ _ h19 j
  obtain ⟨hge, hlt⟩ := IntOp.andi_eq_one.1 hj
  have hge' : IntOp.cmpi .sge (a3 j) (0#32) = 1#1 := by
    have e : broadcastInDim S2048 ![] bcast_S_S2048 (constantI S_ 32 0#32) j = 0#32 :=
      StableHlo.Predicate.bcast_scalar bcast_S_S2048 h_S_ _ j
    rw [← e]; exact hge
  have hlt' : IntOp.cmpi .slt (a3 j) (91#32) = 1#1 := by
    have e : broadcastInDim S2048 ![] bcast_S_S2048 (constantI S_ 32 91#32) j = 91#32 :=
      StableHlo.Predicate.bcast_scalar bcast_S_S2048 h_S_ _ j
    rw [← e]; exact hlt
  rw [IntOp.cmpi_sge] at hge'
  rw [IntOp.cmpi_slt] at hlt'
  exact ⟨by simpa using hge', by simpa using hlt'⟩

/-- So the label word is a natural number below 91. -/
theorem label_word {F : FTy → Type} [FloatOps F] (a0 : FVec F S8192x91 .f32) (a1 : FVec F S8192x4 .f32)
    (a2 : FVec F S2048x4 .f32) (a3 : IVec S2048 32) (h : fn (F := F) a0 a1 a2 a3 = fun _ => 1#1) (j : S2048.Idx) :
    ∃ id : Fin 91, a3 j = BitVec.ofNat 32 id.val := by
  obtain ⟨h0, h1⟩ := label_range a0 a1 a2 a3 h j
  have hn : (a3 j).toNat < 91 := by
    have := BitVec.toInt_eq_toNat_cond (a3 j)
    have hlt : (a3 j).toNat < 2 ^ 32 := (a3 j).isLt
    split at this <;> omega
  refine ⟨⟨(a3 j).toNat, hn⟩, ?_⟩
  apply BitVec.eq_of_toNat_eq
  rw [BitVec.toNat_ofNat]
  show (a3 j).toNat = (a3 j).toNat % 2 ^ 32
  omega

end Cert.Pre_finite_inputs.Labels

end
-- ==== Proof.CostSpec.lean ====
/-
  The matching cost at one (prediction, target) pair, as a function on the extended reals.

  For a prediction box `p` and a target box `b` (centre x, centre y, width, height), a row of class scores
  `row` and a target class `id`, the cost is

      1 · L1(p, b)  +  1 · (−softmax(row)(id))  +  1 · (−GIoU(p, b)),

  with L1 the sum of the four absolute coordinate differences, softmax the exponentials of the scores shifted
  by their maximum over their sum, and GIoU the generalised intersection-over-union of the two boxes in corner
  form. The float literals (0, 1/2, 1, −∞) stay the binary32 words both programs carry; only the zero word is
  ever evaluated.

  Two spellings are given. `cost` is the gathered form (the score's softmax read at the target's class).
  `costDot` is the contracted form (the softmax row contracted against a 0/1 column, the box terms accumulated
  coordinate by coordinate, negations written as differences from zero). `costDot_onehot` says they agree when
  the column is the indicator of `id`.
-/
import Idealize.ShloMosaic.PureOps.Ideal
import Idealize.ShloMosaic.PureOps.Ideal.Laws
import Idealize.ShloMosaic.Lib.ValueIdx

noncomputable section

namespace Cert.MatchCost

open Idealize.ShloMosaic

/-- The binary32 words of the literals. -/
abbrev zeroW : EReal := Ideal.ofBits .f32 0x00000000#32
abbrev halfW : EReal := Ideal.ofBits .f32 0x3F000000#32
abbrev oneW : EReal := Ideal.ofBits .f32 0x3F800000#32
abbrev negInfW : EReal := Ideal.ofBits .f32 0xFF800000#32

theorem zeroW_eq : zeroW = 0 := Ideal.ofBits_zero_f32

/-- The largest score of a row: the fold of `max` from the −∞ word. -/
def rowMax (row : Fin 91 → EReal) : EReal := (Finset.univ : Finset (Fin 91)).fold max negInfW row

/-- A score's shifted exponential. -/
def expShift (row : Fin 91 → EReal) (k : Fin 91) : EReal := Ideal.exp (row k - rowMax row)

/-- The softmax of a row at a class, the normaliser a plain sum. -/
def softmaxAt (row : Fin 91 → EReal) (k : Fin 91) : EReal := Ideal.div (expShift row k) (∑ k', expShift row k')

/-- Corner form of a box: left, top, right, bottom. -/
def xLo (p : Fin 4 → EReal) : EReal := p 0 - halfW * p 2
def yLo (p : Fin 4 → EReal) : EReal := p 1 - halfW * p 3
def xHi (p : Fin 4 → EReal) : EReal := p 0 + halfW * p 2
def yHi (p : Fin 4 → EReal) : EReal := p 1 + halfW * p 3

/-- A box's area from its corners. -/
def area (p : Fin 4 → EReal) : EReal := (xHi p - xLo p) * (yHi p - yLo p)

/-- Intersection area: the clipped overlaps along x and y, multiplied. -/
def inter (p b : Fin 4 → EReal) : EReal :=
  max (min (xHi p) (xHi b) - max (xLo p) (xLo b)) zeroW * max (min (yHi p) (yHi b) - max (yLo p) (yLo b)) zeroW

/-- Union area. -/
def union (p b : Fin 4 → EReal) : EReal := area p + area b - inter p b

/-- Area of the smallest enclosing box. -/
def hull (p b : Fin 4 → EReal) : EReal :=
  max (max (xHi p) (xHi b) - min (xLo p) (xLo b)) zeroW * max (max (yHi p) (yHi b) - min (yLo p) (yLo b)) zeroW

/-- Generalised intersection over union. -/
def giou (p b : Fin 4 → EReal) : EReal :=
  Ideal.div (inter p b) (union p b) - Ideal.div (hull p b - union p b) (hull p b)

/-- Absolute value on the extended reals. -/
def absE (a : EReal) : EReal := max a (-a)

/-- L1 distance of two boxes, summed over the four coordinates. -/
def l1 (p b : Fin 4 → EReal) : EReal := ∑ k : Fin 4, absE (p k - b k)

/-- The gathered form of the cost. -/
def cost (p b : Fin 4 → EReal) (row : Fin 91 → EReal) (id : Fin 91) : EReal :=
  (oneW * l1 p b + oneW * (-(softmaxAt row id))) + oneW * (-(giou p b))

/-- L1 distance accumulated from zero, coordinate by coordinate. -/
def l1Acc (p b : Fin 4 → EReal) : EReal :=
  (((zeroW + absE (p 0 - b 0)) + absE (p 1 - b 1)) + absE (p 2 - b 2)) + absE (p 3 - b 3)

/-- The contracted form of the cost: the softmax row against a column. -/
def costDot (p b : Fin 4 → EReal) (row col : Fin 91 → EReal) : EReal :=
  (oneW * l1Acc p b + oneW * (zeroW - ∑ k, softmaxAt row k * col k)) + oneW * (zeroW - giou p b)

theorem l1Acc_eq (p b : Fin 4 → EReal) : l1Acc p b = l1 p b := by
  unfold l1Acc l1
  rw [Fin.sum_univ_four, zeroW_eq, zero_add]

/-- Against the indicator column of `id` the contraction picks the softmax at `id`. -/
theorem dot_indicator (f : Fin 91 → EReal) (id : Fin 91) :
    (∑ k, f k * (if k = id then (1 : EReal) else 0)) = f id := by
  rw [Finset.sum_eq_single id]
  · rw [if_pos rfl, mul_one]
  · intro k _ hk; rw [if_neg hk, mul_zero]
  · intro h; exact absurd (Finset.mem_univ id) h

theorem costDot_onehot (p b : Fin 4 → EReal) (row : Fin 91 → EReal) (id : Fin 91) (col : Fin 91 → EReal)
    (hcol : ∀ k, col k = if k = id then (1 : EReal) else 0) :
    costDot p b row col = cost p b row id := by
  unfold costDot cost
  rw [l1Acc_eq, show col = fun k => if k = id then (1 : EReal) else 0 from funext hcol, dot_indicator,
    zeroW_eq, zero_sub, zero_sub]

end Cert.MatchCost

end
-- ==== Proof.KernelEntry.lean ====
/-
  The kernel's output block read at one entry, on the extended reals.

  Row `r` of the block belongs to one prediction (its box `x1[r, ·]` and its score row `x0[r, ·]`), column `c`
  to one target (its box `x2[·, c]` and its 0/1 class column `x3[·, c]`). Two facts are proved.

  `class_entry`: the class term at `(r, c)` is zero minus the contraction over the 91 classes of the row's
  softmax against the column. The row maximum is the fold of `max` from the −∞ word over the row, the
  normaliser is the plain sum of the shifted exponentials over the row, both carried from shape [512] to
  [512, 91] by a unit column and a broadcast, which read the row's value at every class; the narrowing of the
  quotient to sixteen bits is the identity here; the product into a zero accumulator is the sum over the one
  contracted axis, whose index set is `Fin 91`.

  `block_entry`: the whole entry at `(r, c)` is the contracted form of the matching cost of the spec at that
  prediction and that target. Each box coordinate reaches `(r, c)` through a one-column (one-row) slice and a
  broadcast along the other axis, so it is read at `(r, k)` (at `(k, c)`); the corners, areas, overlaps and the
  accumulated L1 distance are then the spec's, operation by operation.
-/
import proofs.«402273_j48026324304468_1_alg».proof.Proof.Gen.KernelIdeal.Frame
import proofs.«402273_j48026324304468_1_alg».proof.Proof.CostSpec
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx Cert.MatchCost

/-! ## Layout steps at an index -/

/-- A [512] vector cast to a [512, 1] column reads, at `(i, u)`, the vector at `i`. -/
theorem shapeCast_col_apply {α : Type} (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [512, 1] column broadcast to [512, 91] reads, at `(r, k)`, the column at row `r`. -/
theorem broadcastTo_col91_apply {α : Type} (v : S512x1.Idx → α) (h : S512x1.Broadcasts S512x91) (r : Fin 512) (k : Fin 91) :
    broadcastTo S512x91 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- The source index over the reduced index `r` with class coordinate `k` is `(r, k)`. -/
theorem lift_row (h : S512x91.Reduces [1] S512) (r : Fin 512) (k : Fin 91) : h.lift (ix1 r) k = ix2 r k := by
  funext a
  apply Fin.ext
  match a with
  | ⟨0, _⟩ => rfl
  | ⟨1, _⟩ => rfl

/-- The lane maximum at row `r` is the spec's row maximum: the fold of `max` from the −∞ word over the row. -/
theorem rowMax_read (v0 : FVec Ideal S512x91 .f32) (h : S512x91.Reduces [1] S512) (hφ : FKind.Formats .f32)
    (hacc : (0xFF800000#32 : BitVec 32) = FKind.maximumf.neutral .f32 hφ) (r : Fin 512) :
    multiReduction (F := Ideal) .maximumf [1] S512 v0 0xFF800000#32 h hφ hacc (ix1 r) = rowMax (fun k => v0 (ix2 r k)) := by
  refine (Ideal.multiReduction_maximumf_single v0 _ h hφ hacc (ix1 r)).trans ?_
  have e : (v0 ∘ h.lift (ix1 r)) = fun k : Fin 91 => v0 (ix2 r k) := funext fun k => congrArg v0 (lift_row h r k)
  rw [e]
  rfl

/-- The lane sum at row `r` is the sum of the row's entries. -/
theorem rowSum_read (v5 : FVec Ideal S512x91 .f32) (h : S512x91.Reduces [1] S512) (hφ : FKind.Formats .f32)
    (hacc : (0x00000000#32 : BitVec 32) = FKind.add.neutral .f32 hφ) (r : Fin 512) :
    multiReduction (F := Ideal) .add [1] S512 v5 0x00000000#32 h hφ hacc (ix1 r) = ∑ k : Fin 91, v5 (ix2 r k) := by
  refine (Ideal.multiReduction_add_single v5 _ h hφ hacc (ix1 r)).trans ?_
  exact Finset.sum_congr rfl fun k _ => congrArg v5 (lift_row h r k)

/-- A [512] vector as a column, broadcast along the classes, reads its value at the row. -/
theorem keepdims_apply {α : Type} (w : S512.Idx → α) (hc : S512.ShapeCasts S512x1) (hb : S512x1.Broadcasts S512x91)
    (r : Fin 512) (k : Fin 91) : broadcastTo S512x91 (shapeCast S512x1 w hc) hb (ix2 r k) = w (ix1 r) :=
  (broadcastTo_col91_apply _ hb r k).trans (shapeCast_col_apply w hc r 0)

/-- The exponential of a score less the row's value `w r`, when that value is the row maximum, is the spec's shifted exponential. -/
theorem expShift_read (P2 : Vec Ideal S512x91 .f32) (w : FVec Ideal S512 .f32) (hc : S512.ShapeCasts S512x1)
    (hb : S512x1.Broadcasts S512x91) (r : Fin 512) (k : Fin 91) (hw : w (ix1 r) = rowMax (fun k => P2 (ix2 r k))) :
    exp (subf P2 (broadcastTo S512x91 (shapeCast S512x1 w hc) hb)) (ix2 r k) = expShift (fun k => P2 (ix2 r k)) k := by
  show Ideal.exp (P2 (ix2 r k) - broadcastTo S512x91 (shapeCast S512x1 w hc) hb (ix2 r k)) = _
  rw [keepdims_apply, hw]
  rfl

/-! ## The contraction's operand indices -/

theorem lhs_0 (j : S512x512.Idx) (k : dot_S512x91_S91x512_S512x512_1_0_0_1_n_n.contr.Idx) :
    (dot_S512x91_S91x512_S512x512_1_0_0_1_n_n.lhsIdx j k 0 : ℕ) = j 0 := by
  simp [DotDims.lhsIdx, dot_S512x91_S91x512_S512x512_1_0_0_1_n_n]; rfl

theorem lhs_1 (j : S512x512.Idx) (k : dot_S512x91_S91x512_S512x512_1_0_0_1_n_n.contr.Idx) :
    (dot_S512x91_S91x512_S512x512_1_0_0_1_n_n.lhsIdx j k 1 : ℕ) = k ⟨0, by decide⟩ :=
  dot_S512x91_S91x512_S512x512_1_0_0_1_n_n.lhsIdx_val_of_single rfl j k

theorem rhs_0 (j : S512x512.Idx) (k : dot_S512x91_S91x512_S512x512_1_0_0_1_n_n.contr.Idx) :
    (dot_S512x91_S91x512_S512x512_1_0_0_1_n_n.rhsIdx j k 0 : ℕ) = k ⟨0, by decide⟩ :=
  dot_S512x91_S91x512_S512x512_1_0_0_1_n_n.rhsIdx_val_of_single rfl j k

theorem rhs_1 (j : S512x512.Idx) (k : dot_S512x91_S91x512_S512x512_1_0_0_1_n_n.contr.Idx) :
    (dot_S512x91_S91x512_S512x512_1_0_0_1_n_n.rhsIdx j k 1 : ℕ) = j 1 := by
  simp [DotDims.rhsIdx, dot_S512x91_S91x512_S512x512_1_0_0_1_n_n]; rfl

/-- The left operand is read at `(r, k)` … -/
theorem lhsIdx_eq (r c : Fin 512) (k : Fin 91) :
    dot_S512x91_S91x512_S512x512_1_0_0_1_n_n.lhsIdx (ix2 r c)
      ((contrEquiv1 dot_S512x91_S91x512_S512x512_1_0_0_1_n_n 91 rfl rfl).symm k) = ix2 r k := by
  funext a
  apply Fin.ext
  match a with
  | ⟨0, _⟩ => exact lhs_0 _ _
  | ⟨1, _⟩ => exact (lhs_1 _ _).trans (contrEquiv1_symm_val dot_S512x91_S91x512_S512x512_1_0_0_1_n_n 91 rfl rfl k)

/-- … and the right operand at `(k, c)`, `k` the contraction's one coordinate. -/
theorem rhsIdx_eq (r c : Fin 512) (k : Fin 91) :
    dot_S512x91_S91x512_S512x512_1_0_0_1_n_n.rhsIdx (ix2 r c)
      ((contrEquiv1 dot_S512x91_S91x512_S512x512_1_0_0_1_n_n 91 rfl rfl).symm k) = ix2 k c := by
  funext a
  apply Fin.ext
  match a with
  | ⟨0, _⟩ => exact (rhs_0 _ _).trans (contrEquiv1_symm_val dot_S512x91_S91x512_S512x512_1_0_0_1_n_n 91 rfl rfl k)
  | ⟨1, _⟩ => exact rhs_1 _ _

/-- The class term at `(r, c)`: zero minus the row's softmax contracted against the column. -/
theorem class_entry (P2 : Vec Ideal S512x91 .f32) (P3 : Vec Ideal S91x512 .bf16) (r c : Fin 512) :
    k0_pay2 (F := Ideal) P2 P3 (ix2 r c) = zeroW - ∑ k : Fin 91, softmaxAt (fun k => P2 (ix2 r k)) k * P3 (ix2 k c) := by
  unfold k0_pay2
  rw [subf_apply, broadcast_apply]
  refine congrArg (fun t => zeroW - t) ?_
  refine (Ideal.matmul_constant_zero_apply _ none _ _ (ix2 r c)).trans ?_
  rw [← Equiv.sum_comp (contrEquiv1 dot_S512x91_S91x512_S512x512_1_0_0_1_n_n 91 rfl rfl).symm]
  refine Finset.sum_congr rfl fun k _ => ?_
  rw [lhsIdx_eq r c k, rhsIdx_eq r c k, shapeCast_self]
  refine congrArg (fun t => t * P3 (ix2 k c)) ?_
  rw [truncf_apply, divf_apply]
  unfold softmaxAt
  refine congrArg₂ Ideal.div ?_ ?_
  · exact expShift_read P2 _ _ _ r k (rowMax_read P2 _ _ _ r)
  · refine (keepdims_apply _ _ _ r k).trans ?_
    refine (rowSum_read _ _ _ _ r).trans ?_
    exact Finset.sum_congr rfl fun k' _ => expShift_read P2 _ _ _ r k' (rowMax_read P2 _ _ _ r)

/-! ## Box coordinates read through slices and broadcasts -/

/-- Column `j` of a [512, 4] array, cut out as a [512, 1] slice, reads the array at `(r, j)`. -/
theorem col_read {α : Type} (x : S512x4.Idx → α) (j : ℕ) (h : S512x4.Slices ![0, j] S512x1) (r : Fin 512) (u : Fin 1)
    (k : Fin 4) (hk : k.val = j) : extractStridedSlice S512x1 ![0, j] x h (ix2 r u) = x (ix2 r k) :=
  slice2_axis1_apply j x h r u k (by omega)

/-- Row `j` of a [4, 512] array, cut out as a [1, 512] slice, reads the array at `(j, c)`. -/
theorem row_read {α : Type} (x : S4x512.Idx → α) (j : ℕ) (h : S4x512.Slices ![j, 0] S1x512) (u : Fin 1) (c : Fin 512)
    (k : Fin 4) (hk : k.val = j) : extractStridedSlice S1x512 ![j, 0] x h (ix2 u c) = x (ix2 k c) :=
  slice2_axis0_apply j x h u c k (by omega)

/-- A [512, 1] column broadcast to [512, 512] reads, at `(r, c)`, the column at row `r`. -/
theorem bcol_apply {α : Type} (v : S512x1.Idx → α) (h : S512x1.Broadcasts S512x512) (r c : Fin 512) :
    broadcastTo S512x512 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- A [1, 512] row broadcast to [512, 512] reads, at `(r, c)`, the row at column `c`. -/
theorem brow_apply {α : Type} (v : S1x512.Idx → α) (h : S1x512.Broadcasts S512x512) (r c : Fin 512) :
    broadcastTo S512x512 v h (ix2 r c) = v (ix2 (0 : Fin 1) c) :=
  broadcastTo_1b_ab_apply v h r c

/-- The absolute value at an index is `max a (-a)` of the entry. -/
theorem absf_apply {s : Shape} {φ : FTy} (a : FVec Ideal s φ) (i : s.Idx) : absf a i = absE (a i) := rfl

/-- A cast to the same shape changes nothing. -/
theorem pay3_eq (x2 : Vec Ideal S4x512 .f32) : k0_pay3 (F := Ideal) x2 = x2 := shapeCast_self _ _

/-! ## The prediction box's corners and area -/

theorem pay8_read (x1 : Vec Ideal S512x4 .f32) (r : Fin 512) (u : Fin 1) :
    k0_pay8 (F := Ideal) x1 (ix2 r u) = xLo (fun k => x1 (ix2 r k)) := by
  unfold k0_pay8 xLo
  rw [subf_apply, mulf_apply, broadcast_apply, col_read x1 0 _ r u 0 rfl, col_read x1 2 _ r u 2 rfl]
  rfl

theorem pay9_read (x1 : Vec Ideal S512x4 .f32) (r : Fin 512) (u : Fin 1) :
    k0_pay9 (F := Ideal) x1 (ix2 r u) = yLo (fun k => x1 (ix2 r k)) := by
  unfold k0_pay9 yLo
  rw [subf_apply, mulf_apply, broadcast_apply, col_read x1 1 _ r u 1 rfl, col_read x1 3 _ r u 3 rfl]
  rfl

theorem pay10_read (x1 : Vec Ideal S512x4 .f32) (r : Fin 512) (u : Fin 1) :
    k0_pay10 (F := Ideal) x1 (ix2 r u) = xHi (fun k => x1 (ix2 r k)) := by
  unfold k0_pay10 xHi
  rw [addf_apply, mulf_apply, broadcast_apply, col_read x1 0 _ r u 0 rfl, col_read x1 2 _ r u 2 rfl]
  rfl

theorem pay11_read (x1 : Vec Ideal S512x4 .f32) (r : Fin 512) (u : Fin 1) :
    k0_pay11 (F := Ideal) x1 (ix2 r u) = yHi (fun k => x1 (ix2 r k)) := by
  unfold k0_pay11 yHi
  rw [addf_apply, mulf_apply, broadcast_apply, col_read x1 1 _ r u 1 rfl, col_read x1 3 _ r u 3 rfl]
  rfl

theorem pay16_read (x1 : Vec Ideal S512x4 .f32) (r : Fin 512) (u : Fin 1) :
    k0_pay16 (F := Ideal) x1 (ix2 r u) = area (fun k => x1 (ix2 r k)) := by
  unfold k0_pay16 area
  rw [mulf_apply, subf_apply, subf_apply, pay10_read, pay8_read, pay11_read, pay9_read]

/-! ## The target box's corners and area -/

theorem pay12_read (v : FVec Ideal S4x512 .f32) (u : Fin 1) (c : Fin 512) :
    k0_pay12 (F := Ideal) v (ix2 u c) = xLo (fun k => v (ix2 k c)) := by
  unfold k0_pay12 xLo
  rw [subf_apply, mulf_apply, broadcast_apply, row_read v 0 _ u c 0 rfl, row_read v 2 _ u c 2 rfl]
  rfl

theorem pay13_read (v : FVec Ideal S4x512 .f32) (u : Fin 1) (c : Fin 512) :
    k0_pay13 (F := Ideal) v (ix2 u c) = yLo (fun k => v (ix2 k c)) := by
  unfold k0_pay13 yLo
  rw [subf_apply, mulf_apply, broadcast_apply, row_read v 1 _ u c 1 rfl, row_read v 3 _ u c 3 rfl]
  rfl

theorem pay14_read (v : FVec Ideal S4x512 .f32) (u : Fin 1) (c : Fin 512) :
    k0_pay14 (F := Ideal) v (ix2 u c) = xHi (fun k => v (ix2 k c)) := by
  unfold k0_pay14 xHi
  rw [addf_apply, mulf_apply, broadcast_apply, row_read v 0 _ u c 0 rfl, row_read v 2 _ u c 2 rfl]
  rfl

theorem pay15_read (v : FVec Ideal S4x512 .f32) (u : Fin 1) (c : Fin 512) :
    k0_pay15 (F := Ideal) v (ix2 u c) = yHi (fun k => v (ix2 k c)) := by
  unfold k0_pay15 yHi
  rw [addf_apply, mulf_apply, broadcast_apply, row_read v 1 _ u c 1 rfl, row_read v 3 _ u c 3 rfl]
  rfl

theorem pay17_read (v : FVec Ideal S4x512 .f32) (u : Fin 1) (c : Fin 512) :
    k0_pay17 (F := Ideal) v (ix2 u c) = area (fun k => v (ix2 k c)) := by
  unfold k0_pay17 area
  rw [mulf_apply, subf_apply, subf_apply, pay14_read, pay12_read, pay15_read, pay13_read]

/-! ## The pairwise terms -/

/-- The larger of the two left edges. -/
theorem pay18_read (x1 : Vec Ideal S512x4 .f32) (v : FVec Ideal S4x512 .f32) (r c : Fin 512) :
    k0_pay18 (F := Ideal) x1 v (ix2 r c) = max (xLo (fun k => x1 (ix2 r k))) (xLo (fun k => v (ix2 k c))) := by
  unfold k0_pay18
  rw [maximumf_apply, bcol_apply, brow_apply, pay8_read, pay12_read]

theorem pay5_read (x1 : Vec Ideal S512x4 .f32) (r c : Fin 512) : k0_pay5 (F := Ideal) x1 (ix2 r c) = x1 (ix2 r 3) := by
  unfold k0_pay5
  rw [bcol_apply, col_read x1 3 _ r 0 3 rfl]

theorem pay6_read (x2 : Vec Ideal S4x512 .f32) (r c : Fin 512) : k0_pay6 (F := Ideal) x2 (ix2 r c) = x2 (ix2 3 c) := by
  unfold k0_pay6
  rw [pay3_eq, brow_apply, row_read x2 3 _ 0 c 3 rfl]

/-- The L1 distance accumulated over the first three coordinates. -/
theorem pay4_read (x1 : Vec Ideal S512x4 .f32) (x2 : Vec Ideal S4x512 .f32) (r c : Fin 512) :
    k0_pay4 (F := Ideal) x1 x2 (ix2 r c)
      = ((zeroW + absE (x1 (ix2 r 0) - x2 (ix2 0 c))) + absE (x1 (ix2 r 1) - x2 (ix2 1 c))) + absE (x1 (ix2 r 2) - x2 (ix2 2 c)) := by
  unfold k0_pay4
  rw [pay3_eq]
  simp only [addf_apply, absf_apply, subf_apply, broadcast_apply, bcol_apply, brow_apply]
  rw [col_read x1 0 _ r 0 0 rfl, col_read x1 1 _ r 0 1 rfl, col_read x1 2 _ r 0 2 rfl,
    row_read x2 0 _ 0 c 0 rfl, row_read x2 1 _ 0 c 1 rfl, row_read x2 2 _ 0 c 2 rfl]
  rfl

/-- The block's entry at `(r, c)` is the contracted form of the matching cost of prediction `r` and target `c`. -/
theorem block_entry (x0 : Vec Ideal S512x91 .f32) (x1 : Vec Ideal S512x4 .f32) (x2 : Vec Ideal S4x512 .f32)
    (x3 : Vec Ideal S91x512 .bf16) (r c : Fin 512) :
    out0_4 (F := Ideal) x0 x1 x2 x3 (ix2 r c)
      = costDot (fun k => x1 (ix2 r k)) (fun k => x2 (ix2 k c)) (fun k => x0 (ix2 r k)) (fun k => x3 (ix2 k c)) := by
  have hz : (![0, 0] : Fin 2 → Nat) = fun _ => 0 := funext fun a => by fin_cases a <;> rfl
  unfold out0_4
  rw [View.canon_unit_zero hz]
  simp only [View.ld_unit_zero (S := S512x91) hz, View.ld_unit_zero (S := S91x512) hz,
    View.ld_unit_zero (S := S512x4) hz, View.ld_unit_zero (S := S4x512) hz]
  rw [pay3_eq]
  unfold k0_pay1 k0_pay19 k0_pay7 k0_pay20
  simp only [addf_apply, subf_apply, mulf_apply, divf_apply, maximumf_apply, minimumf_apply, absf_apply,
    broadcast_apply, bcol_apply, brow_apply]
  rw [class_entry, pay4_read, pay5_read, pay6_read]
  simp only [pay8_read, pay9_read, pay10_read, pay11_read, pay12_read, pay13_read, pay14_read, pay15_read,
    pay16_read, pay17_read, pay18_read]
  unfold costDot l1Acc giou inter union hull
  rfl

end Cert.KernelIdeal.Entry

end
-- ==== Proof.KernelBlocks.lean ====
/-
  From the kernel's blocks to its result array.

  Grid point t writes back block (i, j) of the [8192, 2048] result, 512 rows by 512 columns. Its entry (r, c) is the
  contracted cost of prediction 512·i + r against target 512·j + c: the prediction's box and score row come from row
  512·i + r of the two prediction-side arrays, the target's box and class column from column 512·j + c of the two
  transposed target-side arrays. So every block is the restriction of ONE function of the four arrays as the region finds
  them; the 16 × 4 blocks tile the result, which therefore ends holding that function.
-/
import proofs.«402273_j48026324304468_1_alg».proof.Proof.Gen.KernelIdeal.Frame
import proofs.«402273_j48026324304468_1_alg».proof.Proof.CostSpec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.MatchCost

variable (m : (ℓ : Loc nD τ sig) → Buf (Elt Ideal) ℓ) (ρ : Dev nD → PrngReg)

/-- The whole result as one function of the score array, the prediction boxes, the transposed target boxes and the
    transposed class block: entry (n, t) is the contracted cost of row n against column t. -/
def whole (L : S8192x91.Idx → EReal) (P : S8192x4.Idx → EReal) (T : S4x2048.Idx → EReal) (O : S91x2048.Idx → EReal) :
    S8192x2048.Idx → EReal :=
  fun i => costDot (fun k => P (ix2 (i 0) k)) (fun k => T (ix2 k (i 1))) (fun k => L (ix2 (i 0) k)) (fun k => O (ix2 k (i 1)))

/-- What the body leaves in the output block, entry by entry, as a fact about the body alone. -/
def EntryFact : Prop :=
  ∀ (x0 : Vec Ideal S512x91 .f32) (x1 : Vec Ideal S512x4 .f32) (x2 : Vec Ideal S4x512 .f32) (x3 : Vec Ideal S91x512 .bf16)
    (r c : Fin 512),
    out0_4 (F := Ideal) x0 x1 x2 x3 (ix2 r c)
      = costDot (fun k => x1 (ix2 r k)) (fun k => x2 (ix2 k c)) (fun k => x0 (ix2 r k)) (fun k => x3 (ix2 k c))

/-- The index maps over the grid: the prediction-side windows follow the output's row block, the target-side windows its
    column block, and the other coordinate of each is block 0. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every (row block, column block) pair is some grid point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- What grid point t writes back is block t of `whole` of the arrays as the region finds them. -/
theorem flushed_eq (hentry : EntryFact) (c : Dev nD) (t : Fin cfg0.N) :
    (dats m 0 c).flushed 4 t
      = ((cfg0.win 4).blk t).view.read (Elt Ideal)
          (whole (V m c main_arg0) (V m c main_arg1) (V m c main_v2) (V m c main_v1)) := by
  show (cfg0.win 4).cut (grid0.coords t) ((dats m 0 c).after 4 t) = _
  rw [after0_4]
  obtain ⟨e00, e01, e10, e11, e20, e21, e30, e31, -, -⟩ := idx_facts t
  funext j
  obtain ⟨r, cc, rfl⟩ : ∃ (r cc : Fin 512), j = ix2 r cc := ⟨j 0, j 1, eq_ix2 j⟩
  show out0_4 (F := Ideal) (iblk m c 0 t) (iblk m c 1 t) (iblk m c 2 t) (iblk m c 3 t) (ix2 r cc)
    = whole (V m c main_arg0) (V m c main_arg1) (V m c main_v2) (V m c main_v1) (((cfg0.win 4).blk t).view.emb (ix2 r cc))
  refine (hentry (iblk m c 0 t) (iblk m c 1 t) (iblk m c 2 t) (iblk m c 3 t) r cc).trans ?_
  unfold whole
  have hP : (fun k : Fin 4 => (iblk m c 1 t : Vec Ideal S512x4 .f32) (ix2 r k))
      = fun k : Fin 4 => (V m c main_arg1 : S8192x4.Idx → EReal) (ix2 ((((cfg0.win 4).blk t).view.emb (ix2 r cc)) 0) k) := by
    funext k
    show (V m c main_arg1 : S8192x4.Idx → EReal) (((cfg0.win 1).blk t).view.emb (ix2 r k)) = _
    refine congrArg _ (funext fun a => Fin.ext ?_)
    match a with
    | ⟨0, _⟩ => show win0_1.index t (0 : Fin 2) * 512 + 1 * r.val = win0_4.index t (0 : Fin 2) * 512 + 1 * r.val; omega
    | ⟨1, _⟩ => show win0_1.index t (1 : Fin 2) * 4 + 1 * k.val = k.val; omega
  have hL : (fun k : Fin 91 => (iblk m c 0 t : Vec Ideal S512x91 .f32) (ix2 r k))
      = fun k : Fin 91 => (V m c main_arg0 : S8192x91.Idx → EReal) (ix2 ((((cfg0.win 4).blk t).view.emb (ix2 r cc)) 0) k) := by
    funext k
    show (V m c main_arg0 : S8192x91.Idx → EReal) (((cfg0.win 0).blk t).view.emb (ix2 r k)) = _
    refine congrArg _ (funext fun a => Fin.ext ?_)
    match a with
    | ⟨0, _⟩ => show win0_0.index t (0 : Fin 2) * 512 + 1 * r.val = win0_4.index t (0 : Fin 2) * 512 + 1 * r.val; omega
    | ⟨1, _⟩ => show win0_0.index t (1 : Fin 2) * 91 + 1 * k.val = k.val; omega
  have hT : (fun k : Fin 4 => (iblk m c 2 t : Vec Ideal S4x512 .f32) (ix2 k cc))
      = fun k : Fin 4 => (V m c main_v2 : S4x2048.Idx → EReal) (ix2 k ((((cfg0.win 4).blk t).view.emb (ix2 r cc)) 1)) := by
    funext k
    show (V m c main_v2 : S4x2048.Idx → EReal) (((cfg0.win 2).blk t).view.emb (ix2 k cc)) = _
    refine congrArg _ (funext fun a => Fin.ext ?_)
    match a with
    | ⟨0, _⟩ => show win0_2.index t (0 : Fin 2) * 4 + 1 * k.val = k.val; omega
    | ⟨1, _⟩ => show win0_2.index t (1 : Fin 2) * 512 + 1 * cc.val = win0_4.index t (1 : Fin 2) * 512 + 1 * cc.val; omega
  have hO : (fun k : Fin 91 => (iblk m c 3 t : Vec Ideal S91x512 .bf16) (ix2 k cc))
      = fun k : Fin 91 => (V m c main_v1 : S91x2048.Idx → EReal) (ix2 k ((((cfg0.win 4).blk t).view.emb (ix2 r cc)) 1)) := by
    funext k
    show (V m c main_v1 : S91x2048.Idx → EReal) (((cfg0.win 3).blk t).view.emb (ix2 k cc)) = _
    refine congrArg _ (funext fun a => Fin.ext ?_)
    match a with
    | ⟨0, _⟩ => show win0_3.index t (0 : Fin 2) * 91 + 1 * k.val = k.val; omega
    | ⟨1, _⟩ => show win0_3.index t (1 : Fin 2) * 512 + 1 * cc.val = win0_4.index t (1 : Fin 2) * 512 + 1 * cc.val; omega
  rw [hP, hL, hT, hO]

/-- An index of the result is in grid point t's block iff each coordinate is in the block's range. -/
theorem mem_blk (t : Fin cfg0.N) (i : S8192x2048.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v3).slice (win0_4.rect t)).set ↔ _
  rw [View.set_slice_whole, Rect.mem_set_unit]
  exact Iff.rfl

/-- The blocks tile the result: entry (n, t) lies in the block of row block n / 512 and column block t / 512. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The result array after the run is `whole` of the arrays as the region finds them. -/
theorem final (hentry : EntryFact) (c : Dev nD) :
    (dats m 0 c).arrAt 4 cfg0.N = whole (V m c main_arg0) (V m c main_arg1) (V m c main_v2) (V m c main_v1) :=
  (dats m 0 c).arrAt_eq_of_cover 4 _ (fun t _ => flushed_eq m hentry c t) cover

/-- The run, read: the result array at `whole`, the four arguments unchanged. -/
theorem run (hentry : EntryFact) :
    θ_run defs (onTc (τ := τ) (main (F := Ideal))) ⟨m, fun _ => 0, ρ⟩ fun r => ∀ c : Dev nD,
      r.2.mem ((c : Thread nD τ).loc main_v3) = whole (V m c main_arg0) (V m c main_arg1) (V m c main_v2) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m hentry c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Blocks

end
-- ==== Proof.KernelHost.lean ====
/-
  What the region finds in the two arrays the host writes before the launch.

  The transposed target boxes: entry (k, t) is coordinate k of target t. The class block: entry (k, t) is the
  0/1 word of "target t's label is k", converted to a float, so it is 1 when the label is k and 0 otherwise.
-/
import proofs.«402273_j48026324304468_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The transposed target boxes, as the host's transpose of the argument. -/
theorem tgtT_eq (c : Dev nD) :
    (V m c main_v2 : S4x2048.Idx → Elt F .f32)
      = transpose S4x2048 [1, 0] (m ((c : Thread nD τ).loc main_arg2)) transposes_S2048x4_S4x2048_1_0 := by
  dsimp only [Gen.V]
  simp only [Gen.hostOps0, Gen.hostOps0_1, List.flatten_cons, List.flatten_nil, List.append_nil, List.cons_append,
    List.nil_append]
  after_results

/-- The class block, as the host's operations on the label argument. -/
theorem onehotT_eq (c : Dev nD) :
    (V m c main_v1 : S91x2048.Idx → Elt F .bf16)
      = transpose S91x2048 [1, 0]
          (uitofp (F := F) .bf16 (cmpi .eq
            (broadcastInDim S2048x91 ![0, 1] bcast_S2048x1_S2048x91_0_1
              (broadcastInDim S2048x1 ![0] bcast_S2048_S2048x1_0 (m ((c : Thread nD τ).loc main_arg3))))
            (broadcastInDim S2048x91 ![0, 1] bcast_S1x91_S2048x91_0_1 (iotaInDim S1x91 32 1))))
          transposes_S2048x91_S91x2048_1_0 := by
  dsimp only [Gen.V]
  simp only [Gen.hostOps0, Gen.hostOps0_1, List.flatten_cons, List.flatten_nil, List.append_nil, List.cons_append,
    List.nil_append]
  after_results
  rfl

end Cert.KernelIdeal.HostSide

end
-- ==== Proof.CostArray.lean ====
/-
  The cost matrix as one function of the four argument arrays.

  Entry (n, t) is the gathered cost of prediction n (its box: row n of the prediction boxes; its scores: row n of the
  score array) against target t (its box: row t of the target boxes; its class: label t read as a number below 91).
-/
import proofs.«402273_j48026324304468_1_alg».proof.Proof.CostSpec

noncomputable section

namespace Cert.MatchCost

open Idealize.ShloMosaic Idealize.ShloMosaic.ValueIdx

/-- A label word as a class: its value, reduced into range (labels in range are their own value). -/
def labelOf (w : BitVec 32) : Fin 91 := ⟨w.toNat % 91, Nat.mod_lt _ (by decide)⟩

theorem labelOf_ofNat (id : Fin 91) : labelOf (BitVec.ofNat 32 id.val) = id := by
  apply Fin.ext
  show (BitVec.ofNat 32 id.val).toNat % 91 = id.val
  rw [BitVec.toNat_ofNat]
  have := id.isLt
  omega

/-- The cost matrix. -/
def costMatrix (L : (⟨2, ![8192, 91]⟩ : Shape).Idx → EReal) (P : (⟨2, ![8192, 4]⟩ : Shape).Idx → EReal)
    (B : (⟨2, ![2048, 4]⟩ : Shape).Idx → EReal) (ids : (⟨1, ![2048]⟩ : Shape).Idx → BitVec 32) :
    (⟨2, ![8192, 2048]⟩ : Shape).Idx → EReal :=
  fun i => cost (fun k => P (ix2 (i 0) k)) (fun k => B (ix2 (i 1) k)) (fun k => L (ix2 (i 0) k)) (labelOf (ids (ix1 (i 1))))

end Cert.MatchCost

end
-- ==== Proof.KernelResult.lean ====
/-
  The kernel's result array is the cost matrix of the arguments, when every label is a class.

  The region finds the prediction-side arrays as launched, the target boxes transposed, and the class block as the
  transposed indicator of the labels: entry (k, t) is 1 when target t's label is k, else 0. Against an indicator column
  the contraction of the softmax row picks the label's entry, so the contracted cost is the gathered one.
-/
import proofs.«402273_j48026324304468_1_alg».proof.Proof.KernelBlocks
import proofs.«402273_j48026324304468_1_alg».proof.Proof.KernelHost
import proofs.«402273_j48026324304468_1_alg».proof.Proof.CostArray
import Idealize.ShloMosaic.Lib.StableHlo.Predicate
import Idealize.ShloMosaic.Lib.ValueLayout

noncomputable section

open Idealize.ShloMosaic Idealize.ShloMosaic.TcCoe Idealize.SL.Sem

namespace Cert.KernelIdeal.Result

open Cert.KernelIdeal Cert.KernelIdeal.Gen Idealize.ShloMosaic.ValueIdx Cert.MatchCost
open Idealize.ShloMosaic.StableHlo.Predicate (ij i1q bcast_rows bcast_of_row)

variable (m : (ℓ : Loc nD τ sig) → Buf (Elt Ideal) ℓ) (ρ : Dev nD → PrngReg)

/-- The 0/1 word of "the label is k", converted to a float at the exact instance: 1 when it is, 0 when not. -/
theorem indicator_word (id k : Fin 91) :
    (FloatOps.uitofp (F := Ideal) .bf16 (IntOp.cmpi .eq (BitVec.ofNat 32 id.val) (BitVec.ofNat 32 k.val)) : EReal)
      = if k = id then (1 : EReal) else 0 := by
  have hid := id.isLt
  have hk := k.isLt
  by_cases h : k = id
  · subst h
    rw [if_pos rfl, show IntOp.cmpi .eq (BitVec.ofNat 32 k.val) (BitVec.ofNat 32 k.val) = 1#1 from IntOp.cmpi_eq.2 rfl]
    show (((1#1 : BitVec 1).toNat : ℝ) : EReal) = 1
    simp
  · rw [if_neg h]
    have hne : ¬ IntOp.cmpi .eq (BitVec.ofNat 32 id.val) (BitVec.ofNat 32 k.val) = 1#1 := by
      rw [IntOp.cmpi_eq]
      intro e
      have := congrArg BitVec.toNat e
      rw [BitVec.toNat_ofNat, BitVec.toNat_ofNat] at this
      exact h (Fin.ext (by omega))
    rw [ValueIdx.eq_zero_of_ne_one hne]
    show (((0#1 : BitVec 1).toNat : ℝ) : EReal) = 0
    simp

/-- The class block at (k, t): the indicator of target t's label. -/
theorem classBlock_at (c : Dev nD) (k : Fin 91) (t : Fin 2048) (id : Fin 91)
    (hid : (m ((c : Thread nD τ).loc main_arg3) : S2048.Idx → BitVec 32) (ix1 t) = BitVec.ofNat 32 id.val) :
    (V m c main_v1 : S91x2048.Idx → EReal) (ix2 k t) = if k = id then (1 : EReal) else 0 := by
  rw [HostSide.onehotT_eq m c, transpose_ix2_apply]
  show FloatOps.uitofp (F := Ideal) .bf16 (IntOp.cmpi .eq
      (broadcastInDim S2048x91 ![0, 1] bcast_S2048x1_S2048x91_0_1
        (broadcastInDim S2048x1 ![0] bcast_S2048_S2048x1_0 (m ((c : Thread nD τ).loc main_arg3))) (ij t k))
      (broadcastInDim S2048x91 ![0, 1] bcast_S1x91_S2048x91_0_1 (iotaInDim S1x91 32 1) (ij t k))) = _
  rw [bcast_rows, bcast_of_row]
  have e1 : (Shape.Idx.ofFin t : S2048.Idx) = ix1 t := funext fun d => match d with | ⟨0, _⟩ => Fin.ext rfl
  rw [e1, hid]
  exact indicator_word id k

/-- The transposed target boxes at (k, t): coordinate k of target t. -/
theorem tgtT_at (c : Dev nD) (k : Fin 4) (t : Fin 2048) :
    (V m c main_v2 : S4x2048.Idx → EReal) (ix2 k t)
      = (m ((c : Thread nD τ).loc main_arg2) : S2048x4.Idx → EReal) (ix2 t k) := by
  rw [HostSide.tgtT_eq m c, transpose_ix2_apply]

/-- The block function of the arrays the region finds is the cost matrix of the arguments. -/
theorem whole_eq (c : Dev nD)
    (hl : ∀ t : Fin 2048, ∃ id : Fin 91,
      (m ((c : Thread nD τ).loc main_arg3) : S2048.Idx → BitVec 32) (ix1 t) = BitVec.ofNat 32 id.val) :
    Blocks.whole (V m c main_arg0) (V m c main_arg1) (V m c main_v2) (V m c main_v1)
      = costMatrix (m ((c : Thread nD τ).loc main_arg0)) (m ((c : Thread nD τ).loc main_arg1))
          (m ((c : Thread nD τ).loc main_arg2)) (m ((c : Thread nD τ).loc main_arg3)) := by
  funext i
  obtain ⟨id, hid⟩ := hl (i 1)
  unfold Blocks.whole costMatrix
  rw [hid, labelOf_ofNat, V_main_arg0 m c, V_main_arg1 m c]
  rw [show (fun k : Fin 4 => (V m c main_v2 : S4x2048.Idx → EReal) (ix2 k (i 1)))
      = fun k : Fin 4 => (m ((c : Thread nD τ).loc main_arg2) : S2048x4.Idx → EReal) (ix2 (i 1) k) from
    funext fun k => tgtT_at m c k (i 1)]
  exact costDot_onehot _ _ _ id _ (fun k => classBlock_at m c k (i 1) id hid)

end Cert.KernelIdeal.Result

end
-- ==== Proof.RefGiou.lean ====
/-
  The reference's generalised-IoU cost array, read at one (prediction, target) entry.

  For a prediction box `p` (row `n` of the first box array) and a target box `b` (row `t` of the second), both given
  as (centre x, centre y, width, height), the reference forms the corner coordinates of each box, the two areas, the
  intersection area (overlap along x times overlap along y, each clipped at zero), the union area, the area of the
  smallest enclosing box, and from these the generalised intersection over union; the cost array holds its negation.

  Every operation on the way is either pointwise or a re-layout (slice, reshape, broadcast, concatenation), so the value
  at an entry is the same expression on the extended reals with the array indices followed back to the two input rows.
  The statements below do this one named quantity at a time: the four corners of each box, the corner-form arrays
  (a concatenation of four columns, whose column `k` is the `k`-th corner), the areas, the overlap and the enclosing
  extent along each axis, then intersection, union, enclosing box and the final quotient form.

  On values the only law used is the commutativity of `max`: the reference clips as `max 0 x`, the specification
  writes `max x 0`. On indices the only arithmetic is that of a row-major position: for `t < 2048`,
  `(2048 n + t) / 2048 = n` and `(2048 n + t) mod 2048 = t` (a reshape that drops a trailing unit axis), and `n / 1 = n`.
-/
import proofs.«402273_j48026324304468_1_alg».proof.Proof.Gen.ReferenceIdeal.Read
import proofs.«402273_j48026324304468_1_alg».proof.Proof.CostSpec

noncomputable section

namespace Cert.ReferenceIdeal.RefGiou

open Cert.ReferenceIdeal Cert.ReferenceIdeal.Read Idealize.ShloMosaic Idealize.ShloMosaic.ValueIdx Cert.MatchCost

/-! ## The corners of each box, read at a row -/

theorem xLo1 (x1 : (⟨S8192x4, .f32⟩ : BufTy).Contents (Elt Ideal)) (n : Fin 8192) :
    val_main_v36 (F := Ideal) x1 (ix1 n) = xLo (fun k => x1 (ix2 n k)) := by
  have ea : idx_main_v26 (idx_main_v27 (ix1 n)) = ix2 n 0 :=
    funext fun a => Fin.ext (by match a with | ⟨0, _⟩ => exact Nat.div_one _ | ⟨1, _⟩ => rfl)
  have eb : idx_main_v30 (idx_main_v31 (ix1 n)) = ix2 n 2 :=
    funext fun a => Fin.ext (by match a with | ⟨0, _⟩ => exact Nat.div_one _ | ⟨1, _⟩ => rfl)
  rw [val_main_v36_apply, val_main_v27_apply, val_main_v26_apply, val_main_v35_apply, val_main_v34_apply,
    val_main_cst_4_apply, val_main_v31_apply, val_main_v30_apply, ea, eb]
  rfl

theorem yLo1 (x1 : (⟨S8192x4, .f32⟩ : BufTy).Contents (Elt Ideal)) (n : Fin 8192) :
    val_main_v39 (F := Ideal) x1 (ix1 n) = yLo (fun k => x1 (ix2 n k)) := by
  have ea : idx_main_v28 (idx_main_v29 (ix1 n)) = ix2 n 1 :=
    funext fun a => Fin.ext (by match a with | ⟨0, _⟩ => exact Nat.div_one _ | ⟨1, _⟩ => rfl)
  have eb : idx_main_v32 (idx_main_v33 (ix1 n)) = ix2 n 3 :=
    funext fun a => Fin.ext (by match a with | ⟨0, _⟩ => exact Nat.div_one _ | ⟨1, _⟩ => rfl)
  rw [val_main_v39_apply, val_main_v29_apply, val_main_v28_apply, val_main_v38_apply, val_main_v37_apply,
    val_main_cst_5_apply, val_main_v33_apply, val_main_v32_apply, ea, eb]
  rfl

theorem xHi1 (x1 : (⟨S8192x4, .f32⟩ : BufTy).Contents (Elt Ideal)) (n : Fin 8192) :
    val_main_v42 (F := Ideal) x1 (ix1 n) = xHi (fun k => x1 (ix2 n k)) := by
  have ea : idx_main_v26 (idx_main_v27 (ix1 n)) = ix2 n 0 :=
    funext fun a => Fin.ext (by match a with | ⟨0, _⟩ => exact Nat.div_one _ | ⟨1, _⟩ => rfl)
  have eb : idx_main_v30 (idx_main_v31 (ix1 n)) = ix2 n 2 :=
    funext fun a => Fin.ext (by match a with | ⟨0, _⟩ => exact Nat.div_one _ | ⟨1, _⟩ => rfl)
  rw [val_main_v42_apply, val_main_v27_apply, val_main_v26_apply, val_main_v41_apply, val_main_v40_apply,
    val_main_cst_6_apply, val_main_v31_apply, val_main_v30_apply, ea, eb]
  rfl

theorem yHi1 (x1 : (⟨S8192x4, .f32⟩ : BufTy).Contents (Elt Ideal)) (n : Fin 8192) :
    val_main_v45 (F := Ideal) x1 (ix1 n) = yHi (fun k => x1 (ix2 n k)) := by
  have ea : idx_main_v28 (idx_main_v29 (ix1 n)) = ix2 n 1 :=
    funext fun a => Fin.ext (by match a with | ⟨0, _⟩ => exact Nat.div_one _ | ⟨1, _⟩ => rfl)
  have eb : idx_main_v32 (idx_main_v33 (ix1 n)) = ix2 n 3 :=
    funext fun a => Fin.ext (by match a with | ⟨0, _⟩ => exact Nat.div_one _ | ⟨1, _⟩ => rfl)
  rw [val_main_v45_apply, val_main_v29_apply, val_main_v28_apply, val_main_v44_apply, val_main_v43_apply,
    val_main_cst_7_apply, val_main_v33_apply, val_main_v32_apply, ea, eb]
  rfl

theorem xLo2 (x2 : (⟨S2048x4, .f32⟩ : BufTy).Contents (Elt Ideal)) (t : Fin 2048) :
    val_main_v61 (F := Ideal) x2 (ix1 t) = xLo (fun k => x2 (ix2 t k)) := by
  have ea : idx_main_v51 (idx_main_v52 (ix1 t)) = ix2 t 0 :=
    funext fun a => Fin.ext (by match a with | ⟨0, _⟩ => exact Nat.div_one _ | ⟨1, _⟩ => rfl)
  have eb : idx_main_v55 (idx_main_v56 (ix1 t)) = ix2 t 2 :=
    funext fun a => Fin.ext (by match a with | ⟨0, _⟩ => exact Nat.div_one _ | ⟨1, _⟩ => rfl)
  rw [val_main_v61_apply, val_main_v52_apply, val_main_v51_apply, val_main_v60_apply, val_main_v59_apply,
    val_main_cst_8_apply, val_main_v56_apply, val_main_v55_apply, ea, eb]
  rfl

theorem yLo2 (x2 : (⟨S2048x4, .f32⟩ : BufTy).Contents (Elt Ideal)) (t : Fin 2048) :
    val_main_v64 (F := Ideal) x2 (ix1 t) = yLo (fun k => x2 (ix2 t k)) := by
  have ea : idx_main_v53 (idx_main_v54 (ix1 t)) = ix2 t 1 :=
    funext fun a => Fin.ext (by match a with | ⟨0, _⟩ => exact Nat.div_one _ | ⟨1, _⟩ => rfl)
  have eb : idx_main_v57 (idx_main_v58 (ix1 t)) = ix2 t 3 :=
    funext fun a => Fin.ext (by match a with | ⟨0, _⟩ => exact Nat.div_one _ | ⟨1, _⟩ => rfl)
  rw [val_main_v64_apply, val_main_v54_apply, val_main_v53_apply, val_main_v63_apply, val_main_v62_apply,
    val_main_cst_9_apply, val_main_v58_apply, val_main_v57_apply, ea, eb]
  rfl

theorem xHi2 (x2 : (⟨S2048x4, .f32⟩ : BufTy).Contents (Elt Ideal)) (t : Fin 2048) :
    val_main_v67 (F := Ideal) x2 (ix1 t) = xHi (fun k => x2 (ix2 t k)) := by
  have ea : idx_main_v51 (idx_main_v52 (ix1 t)) = ix2 t 0 :=
    funext fun a => Fin.ext (by match a with | ⟨0, _⟩ => exact Nat.div_one _ | ⟨1, _⟩ => rfl)
  have eb : idx_main_v55 (idx_main_v56 (ix1 t)) = ix2 t 2 :=
    funext fun a => Fin.ext (by match a with | ⟨0, _⟩ => exact Nat.div_one _ | ⟨1, _⟩ => rfl)
  rw [val_main_v67_apply, val_main_v52_apply, val_main_v51_apply, val_main_v66_apply, val_main_v65_apply,
    val_main_cst_10_apply, val_main_v56_apply, val_main_v55_apply, ea, eb]
  rfl

theorem yHi2 (x2 : (⟨S2048x4, .f32⟩ : BufTy).Contents (Elt Ideal)) (t : Fin 2048) :
    val_main_v70 (F := Ideal) x2 (ix1 t) = yHi (fun k => x2 (ix2 t k)) := by
  have ea : idx_main_v53 (idx_main_v54 (ix1 t)) = ix2 t 1 :=
    funext fun a => Fin.ext (by match a with | ⟨0, _⟩ => exact Nat.div_one _ | ⟨1, _⟩ => rfl)
  have eb : idx_main_v57 (idx_main_v58 (ix1 t)) = ix2 t 3 :=
    funext fun a => Fin.ext (by match a with | ⟨0, _⟩ => exact Nat.div_one _ | ⟨1, _⟩ => rfl)
  rw [val_main_v70_apply, val_main_v54_apply, val_main_v53_apply, val_main_v69_apply, val_main_v68_apply,
    val_main_cst_11_apply, val_main_v58_apply, val_main_v57_apply, ea, eb]
  rfl

/-! ## The corner-form arrays: column `k` of the concatenation is the `k`-th corner -/

theorem box1_xLo (x1 : (⟨S8192x4, .f32⟩ : BufTy).Contents (Elt Ideal)) (n : Fin 8192) :
    val_main_v50 (F := Ideal) x1 (ix2 n (0 : Fin 4)) = xLo (fun k => x1 (ix2 n k)) := by
  have h : val_main_v50 (F := Ideal) x1 (ix2 n (0 : Fin 4)) = val_main_v46 (F := Ideal) x1 (ix2 n (0 : Fin 1)) := by
    unfold val_main_v50
    exact concatenate_apply_piece _ _ _ (ix2 n (0 : Fin 4)) 0 (by show (0 : Nat) < 4; omega) S8192x1 (val_main_v46 (F := Ideal) x1) rfl rfl 0 rfl
      (ix2 n (0 : Fin 1)) (fun b hb => by match b with | ⟨0, _⟩ => rfl | ⟨1, _⟩ => exact absurd rfl hb) rfl
  have e : idx_main_v46 (ix2 n (0 : Fin 1)) = ix1 n := funext fun a => Fin.ext (by match a with | ⟨0, _⟩ => rfl)
  rw [h, val_main_v46_apply, e]
  exact xLo1 x1 n

theorem box1_yLo (x1 : (⟨S8192x4, .f32⟩ : BufTy).Contents (Elt Ideal)) (n : Fin 8192) :
    val_main_v50 (F := Ideal) x1 (ix2 n (1 : Fin 4)) = yLo (fun k => x1 (ix2 n k)) := by
  have h : val_main_v50 (F := Ideal) x1 (ix2 n (1 : Fin 4)) = val_main_v47 (F := Ideal) x1 (ix2 n (0 : Fin 1)) := by
    unfold val_main_v50
    exact concatenate_apply_piece _ _ _ (ix2 n (1 : Fin 4)) 1 (by show (1 : Nat) < 4; omega) S8192x1 (val_main_v47 (F := Ideal) x1) rfl rfl 1 rfl
      (ix2 n (0 : Fin 1)) (fun b hb => by match b with | ⟨0, _⟩ => rfl | ⟨1, _⟩ => exact absurd rfl hb) rfl
  have e : idx_main_v47 (ix2 n (0 : Fin 1)) = ix1 n := funext fun a => Fin.ext (by match a with | ⟨0, _⟩ => rfl)
  rw [h, val_main_v47_apply, e]
  exact yLo1 x1 n

theorem box1_xHi (x1 : (⟨S8192x4, .f32⟩ : BufTy).Contents (Elt Ideal)) (n : Fin 8192) :
    val_main_v50 (F := Ideal) x1 (ix2 n (2 : Fin 4)) = xHi (fun k => x1 (ix2 n k)) := by
  have h : val_main_v50 (F := Ideal) x1 (ix2 n (2 : Fin 4)) = val_main_v48 (F := Ideal) x1 (ix2 n (0 : Fin 1)) := by
    unfold val_main_v50
    exact concatenate_apply_piece _ _ _ (ix2 n (2 : Fin 4)) 2 (by show (2 : Nat) < 4; omega) S8192x1 (val_main_v48 (F := Ideal) x1) rfl rfl 2 rfl
      (ix2 n (0 : Fin 1)) (fun b hb => by match b with | ⟨0, _⟩ => rfl | ⟨1, _⟩ => exact absurd rfl hb) rfl
  have e : idx_main_v48 (ix2 n (0 : Fin 1)) = ix1 n := funext fun a => Fin.ext (by match a with | ⟨0, _⟩ => rfl)
  rw [h, val_main_v48_apply, e]
  exact xHi1 x1 n

theorem box1_yHi (x1 : (⟨S8192x4, .f32⟩ : BufTy).Contents (Elt Ideal)) (n : Fin 8192) :
    val_main_v50 (F := Ideal) x1 (ix2 n (3 : Fin 4)) = yHi (fun k => x1 (ix2 n k)) := by
  have h : val_main_v50 (F := Ideal) x1 (ix2 n (3 : Fin 4)) = val_main_v49 (F := Ideal) x1 (ix2 n (0 : Fin 1)) := by
    unfold val_main_v50
    exact concatenate_apply_piece _ _ _ (ix2 n (3 : Fin 4)) 3 (by show (3 : Nat) < 4; omega) S8192x1 (val_main_v49 (F := Ideal) x1) rfl rfl 3 rfl
      (ix2 n (0 : Fin 1)) (fun b hb => by match b with | ⟨0, _⟩ => rfl | ⟨1, _⟩ => exact absurd rfl hb) rfl
  have e : idx_main_v49 (ix2 n (0 : Fin 1)) = ix1 n := funext fun a => Fin.ext (by match a with | ⟨0, _⟩ => rfl)
  rw [h, val_main_v49_apply, e]
  exact yHi1 x1 n

theorem box2_xLo (x2 : (⟨S2048x4, .f32⟩ : BufTy).Contents (Elt Ideal)) (t : Fin 2048) :
    val_main_v75 (F := Ideal) x2 (ix2 t (0 : Fin 4)) = xLo (fun k => x2 (ix2 t k)) := by
  have h : val_main_v75 (F := Ideal) x2 (ix2 t (0 : Fin 4)) = val_main_v71 (F := Ideal) x2 (ix2 t (0 : Fin 1)) := by
    unfold val_main_v75
    exact concatenate_apply_piece _ _ _ (ix2 t (0 : Fin 4)) 0 (by show (0 : Nat) < 4; omega) S2048x1 (val_main_v71 (F := Ideal) x2) rfl rfl 0 rfl
      (ix2 t (0 : Fin 1)) (fun b hb => by match b with | ⟨0, _⟩ => rfl | ⟨1, _⟩ => exact absurd rfl hb) rfl
  have e : idx_main_v71 (ix2 t (0 : Fin 1)) = ix1 t := funext fun a => Fin.ext (by match a with | ⟨0, _⟩ => rfl)
  rw [h, val_main_v71_apply, e]
  exact xLo2 x2 t

theorem box2_yLo (x2 : (⟨S2048x4, .f32⟩ : BufTy).Contents (Elt Ideal)) (t : Fin 2048) :
    val_main_v75 (F := Ideal) x2 (ix2 t (1 : Fin 4)) = yLo (fun k => x2 (ix2 t k)) := by
  have h : val_main_v75 (F := Ideal) x2 (ix2 t (1 : Fin 4)) = val_main_v72 (F := Ideal) x2 (ix2 t (0 : Fin 1)) := by
    unfold val_main_v75
    exact concatenate_apply_piece _ _ _ (ix2 t (1 : Fin 4)) 1 (by show (1 : Nat) < 4; omega) S2048x1 (val_main_v72 (F := Ideal) x2) rfl rfl 1 rfl
      (ix2 t (0 : Fin 1)) (fun b hb => by match b with | ⟨0, _⟩ => rfl | ⟨1, _⟩ => exact absurd rfl hb) rfl
  have e : idx_main_v72 (ix2 t (0 : Fin 1)) = ix1 t := funext fun a => Fin.ext (by match a with | ⟨0, _⟩ => rfl)
  rw [h, val_main_v72_apply, e]
  exact yLo2 x2 t

theorem box2_xHi (x2 : (⟨S2048x4, .f32⟩ : BufTy).Contents (Elt Ideal)) (t : Fin 2048) :
    val_main_v75 (F := Ideal) x2 (ix2 t (2 : Fin 4)) = xHi (fun k => x2 (ix2 t k)) := by
  have h : val_main_v75 (F := Ideal) x2 (ix2 t (2 : Fin 4)) = val_main_v73 (F := Ideal) x2 (ix2 t (0 : Fin 1)) := by
    unfold val_main_v75
    exact concatenate_apply_piece _ _ _ (ix2 t (2 : Fin 4)) 2 (by show (2 : Nat) < 4; omega) S2048x1 (val_main_v73 (F := Ideal) x2) rfl rfl 2 rfl
      (ix2 t (0 : Fin 1)) (fun b hb => by match b with | ⟨0, _⟩ => rfl | ⟨1, _⟩ => exact absurd rfl hb) rfl
  have e : idx_main_v73 (ix2 t (0 : Fin 1)) = ix1 t := funext fun a => Fin.ext (by match a with | ⟨0, _⟩ => rfl)
  rw [h, val_main_v73_apply, e]
  exact xHi2 x2 t

theorem box2_yHi (x2 : (⟨S2048x4, .f32⟩ : BufTy).Contents (Elt Ideal)) (t : Fin 2048) :
    val_main_v75 (F := Ideal) x2 (ix2 t (3 : Fin 4)) = yHi (fun k => x2 (ix2 t k)) := by
  have h : val_main_v75 (F := Ideal) x2 (ix2 t (3 : Fin 4)) = val_main_v74 (F := Ideal) x2 (ix2 t (0 : Fin 1)) := by
    unfold val_main_v75
    exact concatenate_apply_piece _ _ _ (ix2 t (3 : Fin 4)) 3 (by show (3 : Nat) < 4; omega) S2048x1 (val_main_v74 (F := Ideal) x2) rfl rfl 3 rfl
      (ix2 t (0 : Fin 1)) (fun b hb => by match b with | ⟨0, _⟩ => rfl | ⟨1, _⟩ => exact absurd rfl hb) rfl
  have e : idx_main_v74 (ix2 t (0 : Fin 1)) = ix1 t := funext fun a => Fin.ext (by match a with | ⟨0, _⟩ => rfl)
  rw [h, val_main_v74_apply, e]
  exact yHi2 x2 t

/-! ## Areas -/

theorem area1 (x1 : (⟨S8192x4, .f32⟩ : BufTy).Contents (Elt Ideal)) (n : Fin 8192) :
    val_main_v86 (F := Ideal) x1 (ix1 n) = area (fun k => x1 (ix2 n k)) := by
  have e2 : idx_main_v76 (idx_main_v77 (ix1 n)) = ix2 n 2 :=
    funext fun a => Fin.ext (by match a with | ⟨0, _⟩ => exact Nat.div_one _ | ⟨1, _⟩ => rfl)
  have e0 : idx_main_v78 (idx_main_v79 (ix1 n)) = ix2 n 0 :=
    funext fun a => Fin.ext (by match a with | ⟨0, _⟩ => exact Nat.div_one _ | ⟨1, _⟩ => rfl)
  have e3 : idx_main_v81 (idx_main_v82 (ix1 n)) = ix2 n 3 :=
    funext fun a => Fin.ext (by match a with | ⟨0, _⟩ => exact Nat.div_one _ | ⟨1, _⟩ => rfl)
  have e1 : idx_main_v83 (idx_main_v84 (ix1 n)) = ix2 n 1 :=
    funext fun a => Fin.ext (by match a with | ⟨0, _⟩ => exact Nat.div_one _ | ⟨1, _⟩ => rfl)
  rw [val_main_v86_apply, val_main_v80_apply, val_main_v77_apply, val_main_v76_apply, val_main_v79_apply,
    val_main_v78_apply, val_main_v85_apply, val_main_v82_apply, val_main_v81_apply, val_main_v84_apply,
    val_main_v83_apply, e2, e0, e3, e1, box1_xHi, box1_xLo, box1_yHi, box1_yLo]
  rfl

theorem area2 (x2 : (⟨S2048x4, .f32⟩ : BufTy).Contents (Elt Ideal)) (t : Fin 2048) :
    val_main_v97 (F := Ideal) x2 (ix1 t) = area (fun k => x2 (ix2 t k)) := by
  have e2 : idx_main_v87 (idx_main_v88 (ix1 t)) = ix2 t 2 :=
    funext fun a => Fin.ext (by match a with | ⟨0, _⟩ => exact Nat.div_one _ | ⟨1, _⟩ => rfl)
  have e0 : idx_main_v89 (idx_main_v90 (ix1 t)) = ix2 t 0 :=
    funext fun a => Fin.ext (by match a with | ⟨0, _⟩ => exact Nat.div_one _ | ⟨1, _⟩ => rfl)
  have e3 : idx_main_v92 (idx_main_v93 (ix1 t)) = ix2 t 3 :=
    funext fun a => Fin.ext (by match a with | ⟨0, _⟩ => exact Nat.div_one _ | ⟨1, _⟩ => rfl)
  have e1 : idx_main_v94 (idx_main_v95 (ix1 t)) = ix2 t 1 :=
    funext fun a => Fin.ext (by match a with | ⟨0, _⟩ => exact Nat.div_one _ | ⟨1, _⟩ => rfl)
  rw [val_main_v97_apply, val_main_v91_apply, val_main_v88_apply, val_main_v87_apply, val_main_v90_apply,
    val_main_v89_apply, val_main_v96_apply, val_main_v93_apply, val_main_v92_apply, val_main_v95_apply,
    val_main_v94_apply, e2, e0, e3, e1, box2_xHi, box2_xLo, box2_yHi, box2_yLo]
  rfl

/-! ## Overlap and enclosing extent along each axis, before clipping at zero -/

theorem overlap_x (x1 : (⟨S8192x4, .f32⟩ : BufTy).Contents (Elt Ideal)) (x2 : (⟨S2048x4, .f32⟩ : BufTy).Contents (Elt Ideal)) (n : Fin 8192) (t : Fin 2048) :
    val_main_v112 (F := Ideal) x1 x2 (ix3 n t (0 : Fin 2)) = min (xHi (fun k => x1 (ix2 n k))) (xHi (fun k => x2 (ix2 t k))) - max (xLo (fun k => x1 (ix2 n k))) (xLo (fun k => x2 (ix2 t k))) := by
  have ea1 : idx_main_v105 (idx_main_v106 (idx_main_v109 (ix3 n t (0 : Fin 2)))) = ix2 n 2 := funext fun a => Fin.ext (by match a with | ⟨0, _⟩ => rfl | ⟨1, _⟩ => rfl)
  have ea2 : idx_main_v107 (idx_main_v108 (idx_main_v110 (ix3 n t (0 : Fin 2)))) = ix2 t 2 := funext fun a => Fin.ext (by match a with | ⟨0, _⟩ => rfl | ⟨1, _⟩ => rfl)
  have eb1 : idx_main_v98 (idx_main_v99 (idx_main_v102 (ix3 n t (0 : Fin 2)))) = ix2 n 0 := funext fun a => Fin.ext (by match a with | ⟨0, _⟩ => rfl | ⟨1, _⟩ => rfl)
  have eb2 : idx_main_v100 (idx_main_v101 (idx_main_v103 (ix3 n t (0 : Fin 2)))) = ix2 t 0 := funext fun a => Fin.ext (by match a with | ⟨0, _⟩ => rfl | ⟨1, _⟩ => rfl)
  rw [val_main_v112_apply, val_main_v111_apply, val_main_v109_apply, val_main_v106_apply, val_main_v105_apply,
    val_main_v110_apply, val_main_v108_apply, val_main_v107_apply,
    val_main_v104_apply, val_main_v102_apply, val_main_v99_apply, val_main_v98_apply,
    val_main_v103_apply, val_main_v101_apply, val_main_v100_apply, ea1, ea2, eb1, eb2, box1_xHi, box2_xHi, box1_xLo, box2_xLo]
  rfl

theorem overlap_y (x1 : (⟨S8192x4, .f32⟩ : BufTy).Contents (Elt Ideal)) (x2 : (⟨S2048x4, .f32⟩ : BufTy).Contents (Elt Ideal)) (n : Fin 8192) (t : Fin 2048) :
    val_main_v112 (F := Ideal) x1 x2 (ix3 n t (1 : Fin 2)) = min (yHi (fun k => x1 (ix2 n k))) (yHi (fun k => x2 (ix2 t k))) - max (yLo (fun k => x1 (ix2 n k))) (yLo (fun k => x2 (ix2 t k))) := by
  have ea1 : idx_main_v105 (idx_main_v106 (idx_main_v109 (ix3 n t (1 : Fin 2)))) = ix2 n 3 := funext fun a => Fin.ext (by match a with | ⟨0, _⟩ => rfl | ⟨1, _⟩ => rfl)
  have ea2 : idx_main_v107 (idx_main_v108 (idx_main_v110 (ix3 n t (1 : Fin 2)))) = ix2 t 3 := funext fun a => Fin.ext (by match a with | ⟨0, _⟩ => rfl | ⟨1, _⟩ => rfl)
  have eb1 : idx_main_v98 (idx_main_v99 (idx_main_v102 (ix3 n t (1 : Fin 2)))) = ix2 n 1 := funext fun a => Fin.ext (by match a with | ⟨0, _⟩ => rfl | ⟨1, _⟩ => rfl)
  have eb2 : idx_main_v100 (idx_main_v101 (idx_main_v103 (ix3 n t (1 : Fin 2)))) = ix2 t 1 := funext fun a => Fin.ext (by match a with | ⟨0, _⟩ => rfl | ⟨1, _⟩ => rfl)
  rw [val_main_v112_apply, val_main_v111_apply, val_main_v109_apply, val_main_v106_apply, val_main_v105_apply,
    val_main_v110_apply, val_main_v108_apply, val_main_v107_apply,
    val_main_v104_apply, val_main_v102_apply, val_main_v99_apply, val_main_v98_apply,
    val_main_v103_apply, val_main_v101_apply, val_main_v100_apply, ea1, ea2, eb1, eb2, box1_yHi, box2_yHi, box1_yLo, box2_yLo]
  rfl

theorem extent_x (x1 : (⟨S8192x4, .f32⟩ : BufTy).Contents (Elt Ideal)) (x2 : (⟨S2048x4, .f32⟩ : BufTy).Contents (Elt Ideal)) (n : Fin 8192) (t : Fin 2048) :
    val_main_v140 (F := Ideal) x1 x2 (ix3 n t (0 : Fin 2)) = max (xHi (fun k => x1 (ix2 n k))) (xHi (fun k => x2 (ix2 t k))) - min (xLo (fun k => x1 (ix2 n k))) (xLo (fun k => x2 (ix2 t k))) := by
  have ea1 : idx_main_v133 (idx_main_v134 (idx_main_v137 (ix3 n t (0 : Fin 2)))) = ix2 n 2 := funext fun a => Fin.ext (by match a with | ⟨0, _⟩ => rfl | ⟨1, _⟩ => rfl)
  have ea2 : idx_main_v135 (idx_main_v136 (idx_main_v138 (ix3 n t (0 : Fin 2)))) = ix2 t 2 := funext fun a => Fin.ext (by match a with | ⟨0, _⟩ => rfl | ⟨1, _⟩ => rfl)
  have eb1 : idx_main_v126 (idx_main_v127 (idx_main_v130 (ix3 n t (0 : Fin 2)))) = ix2 n 0 := funext fun a => Fin.ext (by match a with | ⟨0, _⟩ => rfl | ⟨1, _⟩ => rfl)
  have eb2 : idx_main_v128 (idx_main_v129 (idx_main_v131 (ix3 n t (0 : Fin 2)))) = ix2 t 0 := funext fun a => Fin.ext (by match a with | ⟨0, _⟩ => rfl | ⟨1, _⟩ => rfl)
  rw [val_main_v140_apply, val_main_v139_apply, val_main_v137_apply, val_main_v134_apply, val_main_v133_apply,
    val_main_v138_apply, val_main_v136_apply, val_main_v135_apply,
    val_main_v132_apply, val_main_v130_apply, val_main_v127_apply, val_main_v126_apply,
    val_main_v131_apply, val_main_v129_apply, val_main_v128_apply, ea1, ea2, eb1, eb2, box1_xHi, box2_xHi, box1_xLo, box2_xLo]
  rfl

theorem extent_y (x1 : (⟨S8192x4, .f32⟩ : BufTy).Contents (Elt Ideal)) (x2 : (⟨S2048x4, .f32⟩ : BufTy).Contents (Elt Ideal)) (n : Fin 8192) (t : Fin 2048) :
    val_main_v140 (F := Ideal) x1 x2 (ix3 n t (1 : Fin 2)) = max (yHi (fun k => x1 (ix2 n k))) (yHi (fun k => x2 (ix2 t k))) - min (yLo (fun k => x1 (ix2 n k))) (yLo (fun k => x2 (ix2 t k))) := by
  have ea1 : idx_main_v133 (idx_main_v134 (idx_main_v137 (ix3 n t (1 : Fin 2)))) = ix2 n 3 := funext fun a => Fin.ext (by match a with | ⟨0, _⟩ => rfl | ⟨1, _⟩ => rfl)
  have ea2 : idx_main_v135 (idx_main_v136 (idx_main_v138 (ix3 n t (1 : Fin 2)))) = ix2 t 3 := funext fun a => Fin.ext (by match a with | ⟨0, _⟩ => rfl | ⟨1, _⟩ => rfl)
  have eb1 : idx_main_v126 (idx_main_v127 (idx_main_v130 (ix3 n t (1 : Fin 2)))) = ix2 n 1 := funext fun a => Fin.ext (by match a with | ⟨0, _⟩ => rfl | ⟨1, _⟩ => rfl)
  have eb2 : idx_main_v128 (idx_main_v129 (idx_main_v131 (ix3 n t (1 : Fin 2)))) = ix2 t 1 := funext fun a => Fin.ext (by match a with | ⟨0, _⟩ => rfl | ⟨1, _⟩ => rfl)
  rw [val_main_v140_apply, val_main_v139_apply, val_main_v137_apply, val_main_v134_apply, val_main_v133_apply,
    val_main_v138_apply, val_main_v136_apply, val_main_v135_apply,
    val_main_v132_apply, val_main_v130_apply, val_main_v127_apply, val_main_v126_apply,
    val_main_v131_apply, val_main_v129_apply, val_main_v128_apply, ea1, ea2, eb1, eb2, box1_yHi, box2_yHi, box1_yLo, box2_yLo]
  rfl

/-! ## Intersection, union, enclosing box -/

theorem inter_apply (x1 : (⟨S8192x4, .f32⟩ : BufTy).Contents (Elt Ideal)) (x2 : (⟨S2048x4, .f32⟩ : BufTy).Contents (Elt Ideal)) (n : Fin 8192) (t : Fin 2048) :
    val_main_v118 (F := Ideal) x1 x2 (ix2 n t) = inter (fun k => x1 (ix2 n k)) (fun k => x2 (ix2 t k)) := by
  have e0 : idx_main_v114 (idx_main_v115 (ix2 n t)) = ix3 n t (0 : Fin 2) :=
    funext fun a => Fin.ext (by
      have hn := n.isLt; have ht := t.isLt
      match a with
      | ⟨0, _⟩ => show ((n : Nat) * 2048 + (t : Nat)) / 2048 = (n : Nat); omega
      | ⟨1, _⟩ => show ((n : Nat) * 2048 + (t : Nat)) / 1 % 2048 = (t : Nat); omega
      | ⟨2, _⟩ => rfl)
  have e1 : idx_main_v116 (idx_main_v117 (ix2 n t)) = ix3 n t (1 : Fin 2) :=
    funext fun a => Fin.ext (by
      have hn := n.isLt; have ht := t.isLt
      match a with
      | ⟨0, _⟩ => show ((n : Nat) * 2048 + (t : Nat)) / 2048 = (n : Nat); omega
      | ⟨1, _⟩ => show ((n : Nat) * 2048 + (t : Nat)) / 1 % 2048 = (t : Nat); omega
      | ⟨2, _⟩ => rfl)
  rw [val_main_v118_apply, val_main_v115_apply, val_main_v114_apply, val_main_v117_apply, val_main_v116_apply, e0, e1,
    val_main_v113_apply, val_main_v113_apply, val_main_call0_v1_apply, val_main_call0_v1_apply,
    val_main_call0_v0_apply, val_main_cst_12_apply, overlap_x, overlap_y]
  show max zeroW _ * max zeroW _ = _
  rw [max_comm zeroW, max_comm zeroW]
  rfl

theorem union_apply (x1 : (⟨S8192x4, .f32⟩ : BufTy).Contents (Elt Ideal)) (x2 : (⟨S2048x4, .f32⟩ : BufTy).Contents (Elt Ideal)) (n : Fin 8192) (t : Fin 2048) :
    val_main_v124 (F := Ideal) x1 x2 (ix2 n t) = union (fun k => x1 (ix2 n k)) (fun k => x2 (ix2 t k)) := by
  have e1 : idx_main_v119 (idx_main_v121 (ix2 n t)) = ix1 n := funext fun a => Fin.ext (by match a with | ⟨0, _⟩ => rfl)
  have e2 : idx_main_v120 (idx_main_v122 (ix2 n t)) = ix1 t := funext fun a => Fin.ext (by match a with | ⟨0, _⟩ => rfl)
  rw [val_main_v124_apply, val_main_v123_apply, val_main_v121_apply, val_main_v119_apply, val_main_v122_apply,
    val_main_v120_apply, e1, e2, area1, area2, inter_apply]
  rfl

theorem hull_apply (x1 : (⟨S8192x4, .f32⟩ : BufTy).Contents (Elt Ideal)) (x2 : (⟨S2048x4, .f32⟩ : BufTy).Contents (Elt Ideal)) (n : Fin 8192) (t : Fin 2048) :
    val_main_v146 (F := Ideal) x1 x2 (ix2 n t) = hull (fun k => x1 (ix2 n k)) (fun k => x2 (ix2 t k)) := by
  have e0 : idx_main_v142 (idx_main_v143 (ix2 n t)) = ix3 n t (0 : Fin 2) :=
    funext fun a => Fin.ext (by
      have hn := n.isLt; have ht := t.isLt
      match a with
      | ⟨0, _⟩ => show ((n : Nat) * 2048 + (t : Nat)) / 2048 = (n : Nat); omega
      | ⟨1, _⟩ => show ((n : Nat) * 2048 + (t : Nat)) / 1 % 2048 = (t : Nat); omega
      | ⟨2, _⟩ => rfl)
  have e1 : idx_main_v144 (idx_main_v145 (ix2 n t)) = ix3 n t (1 : Fin 2) :=
    funext fun a => Fin.ext (by
      have hn := n.isLt; have ht := t.isLt
      match a with
      | ⟨0, _⟩ => show ((n : Nat) * 2048 + (t : Nat)) / 2048 = (n : Nat); omega
      | ⟨1, _⟩ => show ((n : Nat) * 2048 + (t : Nat)) / 1 % 2048 = (t : Nat); omega
      | ⟨2, _⟩ => rfl)
  rw [val_main_v146_apply, val_main_v143_apply, val_main_v142_apply, val_main_v145_apply, val_main_v144_apply, e0, e1,
    val_main_v141_apply, val_main_v141_apply, val_main_call1_v1_apply, val_main_call1_v1_apply,
    val_main_call1_v0_apply, val_main_cst_13_apply, extent_x, extent_y]
  show max zeroW _ * max zeroW _ = _
  rw [max_comm zeroW, max_comm zeroW]
  rfl

/-! ## The generalised intersection over union, negated -/

theorem giou_apply (x1 : (⟨S8192x4, .f32⟩ : BufTy).Contents (Elt Ideal)) (x2 : (⟨S2048x4, .f32⟩ : BufTy).Contents (Elt Ideal)) (n : Fin 8192) (t : Fin 2048) :
    val_main_v150 (F := Ideal) x1 x2 (ix2 n t) = -(giou (fun k => x1 (ix2 n k)) (fun k => x2 (ix2 t k))) := by
  rw [val_main_v150_apply, val_main_v149_apply, val_main_v125_apply, val_main_v148_apply, val_main_v147_apply,
    inter_apply, union_apply, hull_apply]
  rfl

end Cert.ReferenceIdeal.RefGiou

end
-- ==== Proof.RefClassBox.lean ====
/-
  The reference's class cost and L1 box cost, each read at one (prediction, target) entry.

  The box cost at (n, t) is the sum over the four coordinates of the absolute difference between
  prediction n's and target t's coordinate, accumulated from the zero word: the L1 distance.

  The class cost at (n, t) is the negated softmax of prediction n's score row, read at target t's
  class: the row's maximum is a fold of max from the −∞ word (so taking the maximum with that word
  once more changes nothing), the normaliser a plain sum from the zero word, and the gather reads
  the softmax row at the target's label, which a label below 91 neither wraps nor clamps.
-/
import proofs.«402273_j48026324304468_1_alg».proof.Proof.Gen.ReferenceIdeal.Read
import proofs.«402273_j48026324304468_1_alg».proof.Proof.CostSpec

noncomputable section

namespace Cert.ReferenceIdeal.RefCost

open Cert.ReferenceIdeal Cert.ReferenceIdeal.Read Idealize.ShloMosaic Idealize.ShloMosaic.ValueIdx Cert.MatchCost

/-! ## The L1 box cost -/

/-- One summand of the box cost: the absolute difference of the two boxes' coordinate `k`. Both broadcasts
    read their operand at the entry's own row and the summed coordinate. -/
theorem absdiff_at (x1 : (⟨S8192x4, .f32⟩ : BufTy).Contents (Elt Ideal)) (x2 : (⟨S2048x4, .f32⟩ : BufTy).Contents (Elt Ideal))
    (n : Fin 8192) (t : Fin 2048) (k : Fin 4) :
    val_main_v24 (F := Ideal) x1 x2 (idx_main_v25 (ix2 n t) k) = absE (x1 (ix2 n k) - x2 (ix2 t k)) := by
  rw [val_main_v24_apply, val_main_v23_apply, val_main_v21_apply, val_main_v19_apply, val_main_v22_apply,
    val_main_v20_apply]
  have e1 : idx_main_v19 (idx_main_v21 (idx_main_v25 (ix2 n t) k)) = ix2 n k :=
    funext fun a => Fin.ext (by match a with | ⟨0, _⟩ => rfl | ⟨1, _⟩ => rfl)
  have e2 : idx_main_v20 (idx_main_v22 (idx_main_v25 (ix2 n t) k)) = ix2 t k :=
    funext fun a => Fin.ext (by match a with | ⟨0, _⟩ => rfl | ⟨1, _⟩ => rfl)
  rw [e1, e2]
  rfl

/-- The box cost at an entry is the L1 distance of the prediction's and the target's box. -/
theorem bbox_apply (x1 : (⟨S8192x4, .f32⟩ : BufTy).Contents (Elt Ideal)) (x2 : (⟨S2048x4, .f32⟩ : BufTy).Contents (Elt Ideal)) (n : Fin 8192) (t : Fin 2048) :
    val_main_v25 (F := Ideal) x1 x2 (ix2 n t) = l1 (fun k => x1 (ix2 n k)) (fun k => x2 (ix2 t k)) := by
  rw [val_main_v25_apply, val_main_cst_3_apply]
  unfold l1
  rw [show (FloatOps.ofBits (F := Ideal) .f32 0x00000000#32 : EReal) = zeroW from rfl, zeroW_eq, zero_add]
  exact Finset.sum_congr rfl fun k _ => absdiff_at x1 x2 n t k

/-! ## The class cost -/

/-- The max-reduce of the scores at a row: the fold of max over the row's 91 scores from the −∞ word. -/
theorem rowmax_at (x0 : (⟨S8192x91, .f32⟩ : BufTy).Contents (Elt Ideal)) (n : Fin 8192) :
    val_main_v0 (F := Ideal) x0 (ix1 n) = rowMax (fun k => x0 (ix2 n k)) := by
  unfold val_main_v0 rowMax
  refine (Host.reduce_eq_fold_single (s := S8192x91) (t := S8192) (a := (1 : Fin 2))
    (FloatOps.maximumf (F := Ideal) (φ := .f32)) x0 (val_main_cst (F := Ideal)) Gen.reducesTo_S8192x91_S8192_d1
    (by decide) Gen.h_S_ (ix1 n)).trans ?_
  exact Finset.fold_congr fun k _ =>
    congrArg x0 (funext fun a => Fin.ext (by match a with | ⟨0, _⟩ => rfl | ⟨1, _⟩ => rfl))

/-- A fold of max is at least the value it starts from. -/
theorem negInfW_le_rowMax (row : Fin 91 → EReal) : negInfW ≤ rowMax row := by
  unfold rowMax
  exact (Finset.le_fold_max _).mpr (Or.inl le_rfl)

/-- The maximum of the −∞ word with the row's maximum is the row's maximum: the word is where the fold starts. -/
theorem shift_at (x0 : (⟨S8192x91, .f32⟩ : BufTy).Contents (Elt Ideal)) (n : Fin 8192) :
    val_main_v2 (F := Ideal) x0 (ix1 n) = rowMax (fun k => x0 (ix2 n k)) := by
  rw [val_main_v2_apply, val_main_v1_apply, val_main_cst_0_apply, rowmax_at]
  exact max_eq_right (negInfW_le_rowMax _)

/-- A score's exponential after the row's maximum is subtracted. -/
theorem exp_at (x0 : (⟨S8192x91, .f32⟩ : BufTy).Contents (Elt Ideal)) (n : Fin 8192) (k : Fin 91) :
    val_main_v6 (F := Ideal) x0 (ix2 n k) = expShift (fun k => x0 (ix2 n k)) k := by
  rw [val_main_v6_apply, val_main_v5_apply, val_main_v4_apply, val_main_v3_apply]
  have e : idx_main_v3 (idx_main_v4 (ix2 n k)) = ix1 n :=
    funext fun a => Fin.ext (by match a with | ⟨0, _⟩ => rfl)
  rw [e, shift_at]
  rfl

/-- The normaliser of a row: the plain sum of its shifted exponentials (the zero word adds nothing). -/
theorem denom_at (x0 : (⟨S8192x91, .f32⟩ : BufTy).Contents (Elt Ideal)) (n : Fin 8192) :
    val_main_v7 (F := Ideal) x0 (ix1 n) = ∑ k : Fin 91, expShift (fun k => x0 (ix2 n k)) k := by
  rw [val_main_v7_apply, val_main_cst_1_apply]
  rw [show (FloatOps.ofBits (F := Ideal) .f32 0x00000000#32 : EReal) = zeroW from rfl, zeroW_eq, zero_add]
  refine Finset.sum_congr rfl fun k _ => ?_
  have e : idx_main_v7 (ix1 n) k = ix2 n k :=
    funext fun a => Fin.ext (by match a with | ⟨0, _⟩ => rfl | ⟨1, _⟩ => rfl)
  rw [e, exp_at]

/-- The softmax of a row at a class. -/
theorem softmax_at (x0 : (⟨S8192x91, .f32⟩ : BufTy).Contents (Elt Ideal)) (n : Fin 8192) (k : Fin 91) :
    val_main_v10 (F := Ideal) x0 (ix2 n k) = softmaxAt (fun k => x0 (ix2 n k)) k := by
  rw [val_main_v10_apply, val_main_v9_apply, val_main_v8_apply, exp_at]
  have e : idx_main_v8 (idx_main_v9 (ix2 n k)) = ix1 n :=
    funext fun a => Fin.ext (by match a with | ⟨0, _⟩ => rfl)
  rw [e, denom_at]
  rfl

/-! ### The label: a natural number below 91, read signed, is itself -/

theorem label_toNat (id : Fin 91) : (BitVec.ofNat 32 id.val).toNat = id.val := by
  rw [BitVec.toNat_ofNat]
  have := id.isLt
  omega

theorem label_toInt (id : Fin 91) : (BitVec.ofNat 32 id.val).toInt = (id.val : Int) := by
  rw [BitVec.toInt_eq_toNat_of_lt (by rw [label_toNat]; have := id.isLt; omega), label_toNat]

/-- Such a label is not negative: the signed comparison with zero fails. -/
theorem label_not_neg (id : Fin 91) : IntOp.cmpi .slt (BitVec.ofNat 32 id.val) 0#32 = 0#1 := by
  refine eq_zero_of_ne_one fun h => ?_
  have h' := IntOp.cmpi_slt.mp h
  rw [label_toInt] at h'
  have h0 : (0#32 : BitVec 32).toInt = 0 := rfl
  omega

/-- The wrapped label is the label: the select keeps it because it is not negative. -/
theorem label_at (x3 : (⟨S2048, .i32⟩ : BufTy).Contents (Elt Ideal)) (t : Fin 2048) (id : Fin 91)
    (hid : x3 (ix1 t) = BitVec.ofNat 32 id.val) :
    val_main_v15 (F := Ideal) x3 (ix1 t) = BitVec.ofNat 32 id.val := by
  rw [val_main_v15_apply, val_main_v12_apply, val_main_v11_apply, val_main_c_apply, hid, label_not_neg, select_zero]

/-! ### The gather -/

/-- The gather's result at (n, t): the operand's row n at the column the start index of target t names, the
    start index read signed and clamped into [0, 90]. Row: axis 0 is the one offset axis and is not in the
    start index map. Column: axis 1 is collapsed, and the start index map's one entry. -/
theorem gather_at {α : Type} (x : S8192x91.Idx → α) (idx : IVec S2048x1 32) (n : Fin 8192) (t : Fin 2048) (c : Fin 91)
    (hc : min (idx (ix2 t (0 : Fin 1))).toInt.toNat 90 = c.val) :
    Host.gather gather_S8192x91_S2048x1_S8192x2048_0_1_n_n_1_1_81921 x idx (ix2 n t) = x (ix2 n c) := by
  unfold Host.gather
  refine congrArg x (funext fun a => Fin.ext ?_)
  match a with
  | ⟨0, _⟩ =>
    show gather_S8192x91_S2048x1_S8192x2048_0_1_n_n_1_1_81921.start (ix2 n t) idx 0
      + gather_S8192x91_S2048x1_S8192x2048_0_1_n_n_1_1_81921.batchCoord (ix2 n t) 0
      + gather_S8192x91_S2048x1_S8192x2048_0_1_n_n_1_1_81921.offCoord (ix2 n t) 0 = n.val
    rw [GatherDims.batchCoord_eq_zero _ _ _ List.not_mem_nil]
    unfold GatherDims.start
    rw [dif_neg (show (0 : Fin 2) ∉ gather_S8192x91_S2048x1_S8192x2048_0_1_n_n_1_1_81921.startIndexMap by decide)]
    unfold GatherDims.offCoord
    rw [dif_pos (show (0 : Fin 2) ∈ gather_S8192x91_S2048x1_S8192x2048_0_1_n_n_1_1_81921.sKept by decide)]
    have hk : ∀ h : List.idxOf (0 : Fin 2) gather_S8192x91_S2048x1_S8192x2048_0_1_n_n_1_1_81921.sKept
          < gather_S8192x91_S2048x1_S8192x2048_0_1_n_n_1_1_81921.offsetDims.length,
        gather_S8192x91_S2048x1_S8192x2048_0_1_n_n_1_1_81921.offsetDims[List.idxOf (0 : Fin 2)
          gather_S8192x91_S2048x1_S8192x2048_0_1_n_n_1_1_81921.sKept]'h = (0 : Fin 2) := by decide
    rw [hk]
    show 0 + 0 + n.val = n.val
    omega
  | ⟨1, _⟩ =>
    show gather_S8192x91_S2048x1_S8192x2048_0_1_n_n_1_1_81921.start (ix2 n t) idx 1
      + gather_S8192x91_S2048x1_S8192x2048_0_1_n_n_1_1_81921.batchCoord (ix2 n t) 1
      + gather_S8192x91_S2048x1_S8192x2048_0_1_n_n_1_1_81921.offCoord (ix2 n t) 1 = c.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x91_S2048x1_S8192x2048_0_1_n_n_1_1_81921.startIndexMap from
      List.mem_singleton.mpr rfl)]
    have hsi : gather_S8192x91_S2048x1_S8192x2048_0_1_n_n_1_1_81921.siIdx (ix2 n t)
        ⟨List.idxOf (1 : Fin 2) gather_S8192x91_S2048x1_S8192x2048_0_1_n_n_1_1_81921.startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    exact hc

/-- The class cost at an entry is the negated softmax of the prediction's scores at the target's class. -/
theorem class_apply (x0 : (⟨S8192x91, .f32⟩ : BufTy).Contents (Elt Ideal)) (x3 : (⟨S2048, .i32⟩ : BufTy).Contents (Elt Ideal)) (n : Fin 8192) (t : Fin 2048) (id : Fin 91)
    (hid : x3 (ix1 t) = BitVec.ofNat 32 id.val) :
    val_main_v18 (F := Ideal) x0 x3 (ix2 n t) = -(softmaxAt (fun k => x0 (ix2 n k)) id) := by
  have hstart : val_main_v16 (F := Ideal) x3 (ix2 t (0 : Fin 1)) = BitVec.ofNat 32 id.val := by
    rw [val_main_v16_apply]
    have e : idx_main_v16 (ix2 t (0 : Fin 1)) = ix1 t :=
      funext fun a => Fin.ext (by match a with | ⟨0, _⟩ => rfl)
    rw [e, label_at x3 t id hid]
  have hc : min (val_main_v16 (F := Ideal) x3 (ix2 t (0 : Fin 1))).toInt.toNat 90 = id.val := by
    rw [hstart, label_toInt]
    have := id.isLt
    omega
  rw [val_main_v18_apply]
  unfold val_main_v17
  rw [gather_at _ _ n t id hc, softmax_at]
  rfl

end Cert.ReferenceIdeal.RefCost

end
-- ==== Proof.RefTop.lean ====
/-
  The reference's result array is the cost matrix of the arguments, when every label is a class.

  Its last operations weigh the three cost arrays by the word 1 and add them: (1 · L1 + 1 · class) + 1 · GIoU-cost, entry by
  entry; each array at an entry is the corresponding term of the specification.
-/
import proofs.«402273_j48026324304468_1_alg».proof.Proof.Gen.ReferenceIdeal.Read
import proofs.«402273_j48026324304468_1_alg».proof.Proof.RefClassBox
import proofs.«402273_j48026324304468_1_alg».proof.Proof.CostArray

noncomputable section

namespace Cert.ReferenceIdeal.RefTop

open Cert.ReferenceIdeal Cert.ReferenceIdeal.Read Idealize.ShloMosaic Idealize.ShloMosaic.ValueIdx Cert.MatchCost

/-- The GIoU-cost array at an entry, as a fact about that part of the program alone. -/
def GiouFact : Prop :=
  ∀ (x1 : (⟨S8192x4, .f32⟩ : BufTy).Contents (Elt Ideal)) (x2 : (⟨S2048x4, .f32⟩ : BufTy).Contents (Elt Ideal))
    (n : Fin 8192) (t : Fin 2048),
    val_main_v150 (F := Ideal) x1 x2 (ix2 n t) = -(giou (fun k => x1 (ix2 n k)) (fun k => x2 (ix2 t k)))

theorem result_eq (hg : GiouFact) (x0 : (⟨S8192x91, .f32⟩ : BufTy).Contents (Elt Ideal))
    (x1 : (⟨S8192x4, .f32⟩ : BufTy).Contents (Elt Ideal)) (x2 : (⟨S2048x4, .f32⟩ : BufTy).Contents (Elt Ideal))
    (x3 : (⟨S2048, .i32⟩ : BufTy).Contents (Elt Ideal))
    (hl : ∀ t : Fin 2048, ∃ id : Fin 91, x3 (ix1 t) = BitVec.ofNat 32 id.val) :
    val_main_v158 (F := Ideal) x0 x1 x2 x3 = costMatrix x0 x1 x2 x3 := by
  funext i
  obtain ⟨n, t, rfl⟩ : ∃ (n : Fin 8192) (t : Fin 2048), i = ix2 n t := ⟨i 0, i 1, eq_ix2 i⟩
  obtain ⟨id, hid⟩ := hl t
  have hlab : labelOf (x3 (ix1 ((ix2 n t : S8192x2048.Idx) 1))) = id := by
    show labelOf (x3 (ix1 t)) = id
    rw [hid, labelOf_ofNat]
  rw [val_main_v158_apply, val_main_v155_apply, val_main_v157_apply, val_main_v152_apply, val_main_v154_apply,
    val_main_v151_apply, val_main_v153_apply, val_main_v156_apply, val_main_cst_14_apply, val_main_cst_15_apply,
    val_main_cst_16_apply, RefCost.bbox_apply, RefCost.class_apply x0 x3 n t id hid, hg]
  unfold costMatrix
  rw [hlab]
  rfl

end Cert.ReferenceIdeal.RefTop

end
-- ==== Proof.lean ====
/-
  The certificate of the matching-cost kernel against its reference.

  Both programs compute, for every prediction n and target t, the cost

      1 · L1(box n, box t)  +  1 · (−softmax(scores n)(label t))  +  1 · (−GIoU(box n, box t)).

  The reference gathers the softmax at the label; the kernel contracts the softmax row against the label's indicator
  column (a 0/1 block the host prepares) on the matrix unit, accumulates the L1 terms coordinate by coordinate and writes its
  negations as differences from zero. On the extended reals these agree entry by entry as soon as every label is a class
  (0 ≤ label < 91, the precondition's last conjunct): an indicator column picks one term of the contraction, the rest are
  products with zero. Nothing else of the precondition is used: no law here needs finiteness.

  The three frames are the generated ones (the reference's is its generated run with the result dropped); the ideal pass
  rewrote nothing, so `preserves` is trivial.
-/
import proofs.«402273_j48026324304468_1_alg».proof.Defs
import proofs.«402273_j48026324304468_1_alg».proof.Proof.Gen.Kernel
import proofs.«402273_j48026324304468_1_alg».proof.Proof.Gen.Kernel.Skeleton
import proofs.«402273_j48026324304468_1_alg».proof.Proof.Gen.Kernel.Launch
import proofs.«402273_j48026324304468_1_alg».proof.Proof.Gen.Kernel.Points
import proofs.«402273_j48026324304468_1_alg».proof.Proof.Gen.Kernel.Frame
import proofs.«402273_j48026324304468_1_alg».proof.Proof.Gen.KernelIdeal
import proofs.«402273_j48026324304468_1_alg».proof.Proof.Gen.KernelIdeal.Skeleton
import proofs.«402273_j48026324304468_1_alg».proof.Proof.Gen.KernelIdeal.Launch
import proofs.«402273_j48026324304468_1_alg».proof.Proof.Gen.KernelIdeal.Points
import proofs.«402273_j48026324304468_1_alg».proof.Proof.Gen.KernelIdeal.Frame
import proofs.«402273_j48026324304468_1_alg».proof.Proof.Gen.ReferenceIdeal
import proofs.«402273_j48026324304468_1_alg».proof.Proof.Gen.Pre_finite_inputs
import proofs.«402273_j48026324304468_1_alg».proof.Proof.Gen.ReferenceIdeal.Run
import proofs.«402273_j48026324304468_1_alg».proof.Proof.Gen.ReferenceIdeal.Read
import proofs.«402273_j48026324304468_1_alg».proof.Proof.LabelRange
import proofs.«402273_j48026324304468_1_alg».proof.Proof.KernelEntry
import proofs.«402273_j48026324304468_1_alg».proof.Proof.KernelResult
import proofs.«402273_j48026324304468_1_alg».proof.Proof.RefGiou
import proofs.«402273_j48026324304468_1_alg».proof.Proof.RefTop
import Idealize.ShloMosaic.Adequacy
import Idealize.ShloMosaic.Init

noncomputable section

namespace Cert.Proof

open Idealize.ShloMosaic Idealize.ShloMosaic.TcCoe Idealize.SL.Sem Idealize.ShloMosaic.ValueIdx Cert.MatchCost

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at the cost matrix of the (agreeing) arguments. -/
theorem algebraic : Cert.algebraic_KernelIdeal_ReferenceIdeal := by
  intro m ρ m' ρ' hpre hagree
  have hl : ∀ (c : Dev Cert.KernelIdeal.nD) (t : Fin 2048), ∃ id : Fin 91,
      (m ((c.tc : Thread Cert.KernelIdeal.nD Cert.KernelIdeal.τ).loc Cert.KernelIdeal.main_arg3) : Cert.KernelIdeal.S2048.Idx → BitVec 32) (ix1 t)
        = BitVec.ofNat 32 id.val :=
    fun c t => Cert.Pre_finite_inputs.Labels.label_word _ _ _ _ (hpre c) (ix1 t)
  refine ⟨fun c => costMatrix (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.whole_eq m c (hl c)), (h c).2⟩)
      (Cert.KernelIdeal.Blocks.run m ρ Cert.KernelIdeal.Entry.block_entry)
  · refine (θ_run Cert.ReferenceIdeal.defs _ _).mono (fun r h c => ⟨?_, (h c).2⟩)
      (Cert.ReferenceIdeal.Value.run (F := Ideal) m' ρ')
    obtain ⟨e0, e1, e2, e3⟩ := hagree c
    rw [(h c).1, Cert.ReferenceIdeal.Read.val_main_v158_eq, e0, e1, e2, e3]
    exact Cert.ReferenceIdeal.RefTop.result_eq Cert.ReferenceIdeal.RefGiou.giou_apply _ _ _ _ (hl c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
